-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x800000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x800000 : Shape := ⟨2, ![2, 800000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x64 : Shape := ⟨2, ![100000, 64]⟩
abbrev S5000x128 : Shape := ⟨2, ![5000, 128]⟩
abbrev S5000x64 : Shape := ⟨2, ![5000, 64]⟩
abbrev S900000x64 : Shape := ⟨2, ![900000, 64]⟩
abbrev S1x64 : Shape := ⟨2, ![1, 64]⟩
abbrev S100000x40 : Shape := ⟨2, ![100000, 40]⟩
abbrev S5000x40 : Shape := ⟨2, ![5000, 40]⟩
abbrev S900000x40 : Shape := ⟨2, ![900000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 86
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S900000, .i32⟩
  | .hbm, ⟨32, _⟩ => ⟨S900000, .i1⟩
  | .hbm, ⟨33, _⟩ => ⟨S_, .i32⟩
  | .hbm, ⟨34, _⟩ => ⟨S900000, .i32⟩
  | .hbm, ⟨35, _⟩ => ⟨S900000, .i32⟩
  | .hbm, ⟨36, _⟩ => ⟨S900000, .i32⟩
  | .hbm, ⟨37, _⟩ => ⟨S900000x1, .i32⟩
  | .hbm, ⟨38, _⟩ => ⟨S900000, .f32⟩
  | .hbm, ⟨39, _⟩ => ⟨S_, .i32⟩
  | .hbm, ⟨40, _⟩ => ⟨S900000, .i32⟩
  | .hbm, ⟨41, _⟩ => ⟨S900000, .i1⟩
  | .hbm, ⟨42, _⟩ => ⟨S_, .i32⟩
  | .hbm, ⟨43, _⟩ => ⟨S900000, .i32⟩
  | .hbm, ⟨44, _⟩ => ⟨S900000, .i32⟩
  | .hbm, ⟨45, _⟩ => ⟨S900000, .i32⟩
  | .hbm, ⟨46, _⟩ => ⟨S900000x1, .i32⟩
  | .hbm, ⟨47, _⟩ => ⟨S900000, .f32⟩
  | .hbm, ⟨48, _⟩ => ⟨S900000, .f32⟩
  | .hbm, ⟨49, _⟩ => ⟨S900000x1, .f32⟩
  | .hbm, ⟨50, _⟩ => ⟨S100000x64, .f32⟩
  | .hbm, ⟨51, _⟩ => ⟨S_, .i32⟩
  | .hbm, ⟨52, _⟩ => ⟨S900000, .i32⟩
  | .hbm, ⟨53, _⟩ => ⟨S900000, .i1⟩
  | .hbm, ⟨54, _⟩ => ⟨S_, .i32⟩
  | .hbm, ⟨55, _⟩ => ⟨S900000, .i32⟩
  | .hbm, ⟨56, _⟩ => ⟨S900000, .i32⟩
  | .hbm, ⟨57, _⟩ => ⟨S900000, .i32⟩
  | .hbm, ⟨58, _⟩ => ⟨S900000x1, .i32⟩
  | .hbm, ⟨59, _⟩ => ⟨S900000x64, .f32⟩
  | .hbm, ⟨60, _⟩ => ⟨S900000x64, .f32⟩
  | .hbm, ⟨61, _⟩ => ⟨S900000x64, .f32⟩
  | .hbm, ⟨62, _⟩ => ⟨S_, .f32⟩
  | .hbm, ⟨63, _⟩ => ⟨S100000x64, .f32⟩
  | .hbm, ⟨64, _⟩ => ⟨S900000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x40, .f32⟩
  | .hbm, ⟨69, _⟩ => ⟨S_, .i32⟩
  | .hbm, ⟨70, _⟩ => ⟨S900000, .i32⟩
  | .hbm, ⟨71, _⟩ => ⟨S900000, .i1⟩
  | .hbm, ⟨72, _⟩ => ⟨S_, .i32⟩
  | .hbm, ⟨73, _⟩ => ⟨S900000, .i32⟩
  | .hbm, ⟨74, _⟩ => ⟨S900000, .i32⟩
  | .hbm, ⟨75, _⟩ => ⟨S900000, .i32⟩
  | .hbm, ⟨76, _⟩ => ⟨S900000x1, .i32⟩
  | .hbm, ⟨77, _⟩ => ⟨S900000x40, .f32⟩
  | .hbm, ⟨78, _⟩ => ⟨S900000x40, .f32⟩
  | .hbm, ⟨79, _⟩ => ⟨S900000x40, .f32⟩
  | .hbm, ⟨80, _⟩ => ⟨S_, .f32⟩
  | .hbm, ⟨81, _⟩ => ⟨S100000x40, .f32⟩
  | .hbm, ⟨82, _⟩ => ⟨S900000x1, .i32⟩
  | .hbm, ⟨83, _⟩ => ⟨S100000x40, .f32⟩
  | .hbm, ⟨84, _⟩ => ⟨S1x40, .f32⟩
  | .hbm, ⟨85, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S900000x1_S900000x40_0_1 : S900000x1.BroadcastsInDim S900000x40 (![0, 1] : Fin 2 → Fin S900000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x128_S128x64_S5000x64_1_0_0_1_n_n_wf : DotDims.WF S5000x128 S128x64 S5000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S5000x64_S64x40_S5000x40_1_0_0_1_n_n_wf : DotDims.WF S5000x64 S64x40 S5000x40 [1] [0] [0] [1] [] []
  gather_S100000x40_S900000x1_S900000x40_1_0_n_n_0_1_140_wf : GatherDims.WF S100000x40 S900000x1 S900000x40 [1] [0] [] [0] [] 1 ![1, 40]
  scatter_S100000x40_S900000x1_S900000x40_1_0_0_1_wf : ScatterDims.WF S100000x40 S900000x1 S900000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S900000x1_S900000x40_1_0_n_n_0_1_140 : GatherDims S100000x40 S900000x1 S900000x40 where
  offsetDims := [1]
  collapsedSliceDims := [0]
  operandBatchingDims := []
  startIndicesBatchingDims := []
  startIndexMap := [0]
  indexVectorDim := 1
  sliceSizes := ![1, 40]
  wf := gather_S100000x40_S900000x1_S900000x40_1_0_n_n_0_1_140_wf
def scatter_S100000x40_S900000x1_S900000x40_1_0_0_1 : ScatterDims S100000x40 S900000x1 S900000x40 where
  updateWindowDims := [1]
  insertedWindowDims := [0]
  scatterDimsToOperandDims := [0]
  indexVectorDim := 1
  wf := scatter_S100000x40_S900000x1_S900000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S100000x64 : Shape := ⟨2, ![100000, 64]⟩
abbrev S_ : Shape := ⟨0, ![]⟩
abbrev S900000x1 : Shape := ⟨2, ![900000, 1]⟩
abbrev S900000x64 : Shape := ⟨2, ![900000, 64]⟩
abbrev S1x64 : Shape := ⟨2, ![1, 64]⟩
abbrev S100000x40 : Shape := ⟨2, ![100000, 40]⟩
abbrev S900000x40 : Shape := ⟨2, ![900000, 40]⟩
abbrev S1x40 : Shape := ⟨2, ![1, 40]⟩
abbrev S100000x1 : Shape := ⟨2, ![100000, 1]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x800000, .i32⟩
  | 2 => ⟨S128x64, .f32⟩
  | 3 => ⟨S64, .f32⟩
  | 4 => ⟨S64x40, .f32⟩
  | 5 => ⟨S40, .f32⟩
  | 6 => ⟨S100000, .i32⟩
  | 7 => ⟨S1x800000, .i32⟩
  | 8 => ⟨S800000, .i32⟩
  | 9 => ⟨S900000, .i32⟩
  | 10 => ⟨S1x800000, .i32⟩
  | 11 => ⟨S800000, .i32⟩
  | 12 => ⟨S900000, .i32⟩
  | 13 => ⟨S100000x64, .f32⟩
  | 14 => ⟨S_, .f32⟩
  | 15 => ⟨S900000, .f32⟩
  | 16 => ⟨S_, .f32⟩
  | 17 => ⟨S100000, .f32⟩
  | 18 => ⟨S900000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S900000, .i32⟩
  | 33 => ⟨S900000, .i1⟩
  | 34 => ⟨S_, .i32⟩
  | 35 => ⟨S900000, .i32⟩
  | 36 => ⟨S900000, .i32⟩
  | 37 => ⟨S900000, .i32⟩
  | 38 => ⟨S900000x1, .i32⟩
  | 39 => ⟨S900000, .f32⟩
  | 40 => ⟨S_, .i32⟩
  | 41 => ⟨S900000, .i32⟩
  | 42 => ⟨S900000, .i1⟩
  | 43 => ⟨S_, .i32⟩
  | 44 => ⟨S900000, .i32⟩
  | 45 => ⟨S900000, .i32⟩
  | 46 => ⟨S900000, .i32⟩
  | 47 => ⟨S900000x1, .i32⟩
  | 48 => ⟨S900000, .f32⟩
  | 49 => ⟨S900000, .f32⟩
  | 50 => ⟨S_, .i32⟩
  | 51 => ⟨S900000, .i32⟩
  | 52 => ⟨S900000, .i1⟩
  | 53 => ⟨S_, .i32⟩
  | 54 => ⟨S900000, .i32⟩
  | 55 => ⟨S900000, .i32⟩
  | 56 => ⟨S900000, .i32⟩
  | 57 => ⟨S900000x1, .i32⟩
  | 58 => ⟨S900000x64, .f32⟩
  | 59 => ⟨S900000x1, .f32⟩
  | 60 => ⟨S900000x64, .f32⟩
  | 61 => ⟨S900000x64, .f32⟩
  | 62 => ⟨S_, .f32⟩
  | 63 => ⟨S100000x64, .f32⟩
  | 64 => ⟨S900000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x40, .f32⟩
  | 73 => ⟨S_, .f32⟩
  | 74 => ⟨S900000, .f32⟩
  | 75 => ⟨S_, .f32⟩
  | 76 => ⟨S100000, .f32⟩
  | 77 => ⟨S900000x1, .i32⟩
  | 78 => ⟨S100000, .f32⟩
  | 79 => ⟨S_, .f32⟩
  | 80 => ⟨S100000, .f32⟩
  | 81 => ⟨S100000, .i1⟩
  | 82 => ⟨S_, .f32⟩
  | 83 => ⟨S100000, .f32⟩
  | 84 => ⟨S100000, .f32⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S900000, .i32⟩
  | 92 => ⟨S900000, .i1⟩
  | 93 => ⟨S_, .i32⟩
  | 94 => ⟨S900000, .i32⟩
  | 95 => ⟨S900000, .i32⟩
  | 96 => ⟨S900000, .i32⟩
  | 97 => ⟨S900000x1, .i32⟩
  | 98 => ⟨S900000, .f32⟩
  | 99 => ⟨S_, .i32⟩
  | 100 => ⟨S900000, .i32⟩
  | 101 => ⟨S900000, .i1⟩
  | 102 => ⟨S_, .i32⟩
  | 103 => ⟨S900000, .i32⟩
  | 104 => ⟨S900000, .i32⟩
  | 105 => ⟨S900000, .i32⟩
  | 106 => ⟨S900000x1, .i32⟩
  | 107 => ⟨S900000, .f32⟩
  | 108 => ⟨S900000, .f32⟩
  | 109 => ⟨S_, .i32⟩
  | 110 => ⟨S900000, .i32⟩
  | 111 => ⟨S900000, .i1⟩
  | 112 => ⟨S_, .i32⟩
  | 113 => ⟨S900000, .i32⟩
  | 114 => ⟨S900000, .i32⟩
  | 115 => ⟨S900000, .i32⟩
  | 116 => ⟨S900000x1, .i32⟩
  | 117 => ⟨S900000x40, .f32⟩
  | 118 => ⟨S900000x1, .f32⟩
  | 119 => ⟨S900000x40, .f32⟩
  | 120 => ⟨S900000x40, .f32⟩
  | 121 => ⟨S_, .f32⟩
  | 122 => ⟨S100000x40, .f32⟩
  | 123 => ⟨S900000x1, .i32⟩
  | 124 => ⟨S100000x40, .f32⟩
  | 125 => ⟨S1x40, .f32⟩
  | 126 => ⟨S100000x40, .f32⟩
  | 127 => ⟨S100000x40, .f32⟩
  | _ => ⟨S100000x128, .f32⟩

abbrev hbmTy0_1 (i : Nat) : BufTy := match i % 128 with
  | 0 => ⟨S_, .f32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x40, .f32⟩
  | 7 => ⟨S100000x40, .f32⟩
  | 8 => ⟨S100000x40, .f32⟩
  | 9 => ⟨S_, .f32⟩
  | 10 => ⟨S100000, .f32⟩
  | 11 => ⟨S100000x1, .f32⟩
  | 12 => ⟨S100000x1, .f32⟩
  | 13 => ⟨S100000x40, .f32⟩
  | 14 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v92 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S900000x1_S900000x40_0_1 : S900000x1.BroadcastsInDim S900000x40 (![0, 1] : Fin 2 → Fin S900000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S100000x64_S64x40_S100000x40_1_0_0_1_n_n_wf : DotDims.WF S100000x64 S64x40 S100000x40 [1] [0] [0] [1] [] []
  gather_S100000x40_S900000x1_S900000x40_1_0_n_n_0_1_140_wf : GatherDims.WF S100000x40 S900000x1 S900000x40 [1] [0] [] [0] [] 1 ![1, 40]
  scatter_S100000x40_S900000x1_S900000x40_1_0_0_1_wf : ScatterDims.WF S100000x40 S900000x1 S900000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S900000x1_S900000x40_1_0_n_n_0_1_140 : GatherDims S100000x40 S900000x1 S900000x40 where
  offsetDims := [1]
  collapsedSliceDims := [0]
  operandBatchingDims := []
  startIndicesBatchingDims := []
  startIndexMap := [0]
  indexVectorDim := 1
  sliceSizes := ![1, 40]
  wf := gather_S100000x40_S900000x1_S900000x40_1_0_n_n_0_1_140_wf
def scatter_S100000x40_S900000x1_S900000x40_1_0_0_1 : ScatterDims S100000x40 S900000x1 S900000x40 where
  updateWindowDims := [1]
  insertedWindowDims := [0]
  scatterDimsToOperandDims := [0]
  indexVectorDim := 1
  wf := scatter_S100000x40_S900000x1_S900000x40_1_0_0_1_wf

class Facts : Prop extends Facts₀ where

variable [Facts]
-- ==== Proof.Host.lean ====
/-
  The edge operations both programs share, as closed terms of the edge list (generic in the float values).

  From the edge list `e` (two rows: sources, targets) the programs build, once and for all: the source and the target
  of every edge with one self loop per node appended; each node's degree, the count of edges that end at it (a
  scatter-add of ones); the inverse square root of the degree, zero where the degree is zero; and per edge the product
  of that value at its two ends — the edge's weight, laid out as a column. A layer then mixes the rows of a feature
  array `h`: the source's row is gathered for every edge, scaled by the edge's weight, and summed into the target's
  row (a scatter-add into zeros). Negative indices are first shifted up by the node count, as array indexing does.
  None of these operations is opened anywhere: both programs apply the same ones, and the proof only needs that the
  arrays going in are equal.
-/
import proofs.«150700_j78589311582297_1_alg».proof.KernelIdeal
import proofs.«150700_j78589311582297_1_alg».proof.Proof.Gen.KernelIdeal

noncomputable section

namespace Cert.KernelIdeal.Val

open Idealize.ShloMosaic Idealize.ShloMosaic.TcCoe Idealize.SL.Sem
open Cert.KernelIdeal Cert.KernelIdeal.Facts₀

variable {F : FTy → Type} [FloatOps F]

/-- Row `k` of the edge list (its slice's fact passed along), the nodes' own numbers appended: one end of every edge,
    self loops included. -/
def edgeEnd (off : Fin 2 → Nat) (hs : S2x800000.Slices off S1x800000) (e : (⟨S2x800000, .i32⟩ : BufTy).Contents (Elt F)) :
    (⟨S900000, .i32⟩ : BufTy).Contents (Elt F) :=
  concatenate S900000 0 [⟨S800000, shapeCast S800000 (extractStridedSlice S1x800000 off e hs) shapeCasts_S1x800000_S800000⟩,
    ⟨S100000, iotaInDim S100000 32 0⟩] concatenates_S800000_S100000_S900000_d0

/-- The source of every edge. -/
def srcIx (e : (⟨S2x800000, .i32⟩ : BufTy).Contents (Elt F)) : (⟨S900000, .i32⟩ : BufTy).Contents (Elt F) :=
  edgeEnd ![0, 0] slices_S2x800000_S1x800000_0_0 e

/-- The target of every edge. -/
def dstIx (e : (⟨S2x800000, .i32⟩ : BufTy).Contents (Elt F)) : (⟨S900000, .i32⟩ : BufTy).Contents (Elt F) :=
  edgeEnd ![1, 0] slices_S2x800000_S1x800000_1_0 e

/-- Indices as a column. -/
def colIx (i : (⟨S900000, .i32⟩ : BufTy).Contents (Elt F)) : (⟨S900000x1, .i32⟩ : BufTy).Contents (Elt F) :=
  broadcastInDim S900000x1 ![0] bcast_S900000_S900000x1_0 i

/-- Indices shifted up by the node count where negative, as a column. -/
def wrapIx (i : (⟨S900000, .i32⟩ : BufTy).Contents (Elt F)) : (⟨S900000x1, .i32⟩ : BufTy).Contents (Elt F) :=
  broadcastInDim S900000x1 ![0] bcast_S900000_S900000x1_0
    (select (cmpi .slt i (broadcastInDim S900000 ![] bcast_S_S900000 (constantI S_ 32 0#32)))
      (addi i (broadcastInDim S900000 ![] bcast_S_S900000 (constantI S_ 32 100000#32))) i)

/-- Each node's degree: ones summed at the edges' targets. -/
def degree (e : (⟨S2x800000, .i32⟩ : BufTy).Contents (Elt F)) : (⟨S100000, .f32⟩ : BufTy).Contents (Elt F) :=
  Host.scatterAdd scatter_S100000_S900000x1_S900000_n_0_0_1
    (broadcastInDim S100000 ![] bcast_S_S100000 (constant S_ .f32 0x00000000#32))
    (colIx (dstIx e))
    (broadcastInDim S900000 ![] bcast_S_S900000 (constant S_ .f32 0x3F800000#32))

/-- `a` where the condition holds, the scalar `z` elsewhere. -/
def whereOr (cnd : (⟨S100000, .i1⟩ : BufTy).Contents (Elt F)) (a : (⟨S100000, .f32⟩ : BufTy).Contents (Elt F))
    (z : (⟨S_, .f32⟩ : BufTy).Contents (Elt F)) : (⟨S100000, .f32⟩ : BufTy).Contents (Elt F) :=
  select cnd a (broadcastInDim S100000 ![] bcast_S_S100000 (id z))

/-- Is the degree positive? -/
def degPos (e : (⟨S2x800000, .i32⟩ : BufTy).Contents (Elt F)) : (⟨S100000, .i1⟩ : BufTy).Contents (Elt F) :=
  cmpf (F := F) .ogt (degree e) (broadcastInDim S100000 ![] bcast_S_S100000 (constant S_ .f32 0x00000000#32))

/-- The inverse square root of the degree taken as at least one. -/
def rsqrtDeg (e : (⟨S2x800000, .i32⟩ : BufTy).Contents (Elt F)) : (⟨S100000, .f32⟩ : BufTy).Contents (Elt F) :=
  Host.rsqrt (maximumf (degree e) (broadcastInDim S100000 ![] bcast_S_S100000 (constant S_ .f32 0x3F800000#32)))

/-- The inverse square root of the degree, zero where the degree is not positive. -/
def invSqrtDeg (e : (⟨S2x800000, .i32⟩ : BufTy).Contents (Elt F)) : (⟨S100000, .f32⟩ : BufTy).Contents (Elt F) :=
  whereOr (degPos e) (rsqrtDeg e) (constant S_ .f32 0x00000000#32)

/-- Every edge's weight from a per-node value `d`: the product of `d` at the edge's two ends, as a column. -/
def edgeWeightOf (d : (⟨S100000, .f32⟩ : BufTy).Contents (Elt F)) (src dst : (⟨S900000, .i32⟩ : BufTy).Contents (Elt F)) :
    (⟨S900000x1, .f32⟩ : BufTy).Contents (Elt F) :=
  broadcastInDim S900000x1 ![0] bcast_S900000_S900000x1_0
    (mulf (Host.gather gather_S100000_S900000x1_S900000_n_0_n_n_0_1_1 d (wrapIx src))
      (Host.gather gather_S100000_S900000x1_S900000_n_0_n_n_0_1_1 d (wrapIx dst)))

/-- Every edge's weight: the product of the inverse square roots of the degrees at its two ends. -/
def edgeWeight (e : (⟨S2x800000, .i32⟩ : BufTy).Contents (Elt F)) : (⟨S900000x1, .f32⟩ : BufTy).Contents (Elt F) :=
  edgeWeightOf (invSqrtDeg e) (srcIx e) (dstIx e)

/-- One mixing of a 64-column feature array along given edges with given weights: the source's row gathered for every
    edge, scaled by the edge's weight, summed into the target's row. -/
def mixWith64 (h : (⟨S100000x64, .f32⟩ : BufTy).Contents (Elt F)) (src dst : (⟨S900000, .i32⟩ : BufTy).Contents (Elt F))
    (w : (⟨S900000x1, .f32⟩ : BufTy).Contents (Elt F)) : (⟨S100000x64, .f32⟩ : BufTy).Contents (Elt F) :=
  Host.scatterAdd scatter_S100000x64_S900000x1_S900000x64_1_0_0_1
    (broadcastInDim S100000x64 ![] bcast_S_S100000x64 (constant S_ .f32 0x00000000#32))
    (colIx dst)
    (mulf (Host.gather gather_S100000x64_S900000x1_S900000x64_1_0_n_n_0_1_164 h (wrapIx src))
      (broadcastInDim S900000x64 ![0, 1] bcast_S900000x1_S900000x64_0_1 w))

/-- The same for a 40-column feature array. -/
def mixWith40 (h : (⟨S100000x40, .f32⟩ : BufTy).Contents (Elt F)) (src dst : (⟨S900000, .i32⟩ : BufTy).Contents (Elt F))
    (w : (⟨S900000x1, .f32⟩ : BufTy).Contents (Elt F)) : (⟨S100000x40, .f32⟩ : BufTy).Contents (Elt F) :=
  Host.scatterAdd scatter_S100000x40_S900000x1_S900000x40_1_0_0_1
    (broadcastInDim S100000x40 ![] bcast_S_S100000x40 (constant S_ .f32 0x00000000#32))
    (colIx dst)
    (mulf (Host.gather gather_S100000x40_S900000x1_S900000x40_1_0_n_n_0_1_140 h (wrapIx src))
      (broadcastInDim S900000x40 ![0, 1] bcast_S900000x1_S900000x40_0_1 w))

/-- One mixing of a 64-column feature array along the edges of the edge list. -/
def mix64 (h : (⟨S100000x64, .f32⟩ : BufTy).Contents (Elt F)) (e : (⟨S2x800000, .i32⟩ : BufTy).Contents (Elt F)) :
    (⟨S100000x64, .f32⟩ : BufTy).Contents (Elt F) :=
  mixWith64 h (srcIx e) (dstIx e) (edgeWeight e)

/-- One mixing of a 40-column feature array along the edges of the edge list. -/
def mix40 (h : (⟨S100000x40, .f32⟩ : BufTy).Contents (Elt F)) (e : (⟨S2x800000, .i32⟩ : BufTy).Contents (Elt F)) :
    (⟨S100000x40, .f32⟩ : BufTy).Contents (Elt F) :=
  mixWith40 h (srcIx e) (dstIx e) (edgeWeight e)

end Cert.KernelIdeal.Val

end
-- ==== Proof.Fns.lean ====
/-
  The mathematics both programs compute, as functions on arrays of extended reals.

  A two-layer graph convolution: each layer multiplies the node features by a weight matrix, mixes the rows along the
  edges (a gather, a scaling by the edge's normalisation and a scatter-add, the same operations in both programs, carried
  as they are), adds a bias row; the first layer is clipped below at zero, the second goes through a row-wise
  log-softmax. Written here are only the dense pieces, each as one whole-array function read index by index:
  the matrix product, a row vector added to every row, the entrywise maximum with a fixed value, and log-softmax
  along rows with the row's maximum subtracted first.
-/
import Idealize.ShloMosaic.Lib.ValueIdx
import Idealize.ShloMosaic.PureOps.Ideal.Laws
import Mathlib.Data.Finset.Fold

noncomputable section

open scoped BigOperators

namespace Cert.Gcn

open Idealize.ShloMosaic Idealize.ShloMosaic.ValueIdx

/-- An array of extended reals with `a` rows and `b` columns. -/
abbrev Mat (a b : Nat) : Type := (⟨2, ![a, b]⟩ : Shape).Idx → EReal

/-- A vector of extended reals with `a` entries. -/
abbrev Vec1 (a : Nat) : Type := (⟨1, ![a]⟩ : Shape).Idx → EReal

/-- The row of an index, as a number below the row count. -/
abbrev row {a b : Nat} (i : (⟨2, ![a, b]⟩ : Shape).Idx) : Fin a := ⟨(i 0).val, idx2_lt0 i⟩

/-- The column of an index, as a number below the column count. -/
abbrev col {a b : Nat} (i : (⟨2, ![a, b]⟩ : Shape).Idx) : Fin b := ⟨(i 1).val, idx2_lt1 i⟩

/-- An index is its row and its column. -/
theorem eq_row_col {a b : Nat} (i : (⟨2, ![a, b]⟩ : Shape).Idx) : i = ix2 (row i) (col i) := by
  funext d; match d with | ⟨0, _⟩ => rfl | ⟨1, _⟩ => rfl

/-- The matrix product: entry (r, q) is the sum over l of x (r, l) · w (l, q). -/
def matProd {n k m : Nat} (x : Mat n k) (w : Mat k m) : Mat n m :=
  fun i => ∑ l : Fin k, x (ix2 (row i) l) * w (ix2 l (col i))

/-- A vector laid out as the one row of a one-row array. -/
def asRow {d : Nat} (b : Vec1 d) : Mat 1 d := fun i => b (ix1 (col i))

/-- The row vector `b` added to every row of `a`. -/
def addRow {n d : Nat} (a : Mat n d) (b : Mat 1 d) : Mat n d :=
  fun i => a i + b (ix2 (0 : Fin 1) (col i))

/-- The entrywise maximum with the fixed value `z`. -/
def clipBelow {n d : Nat} (z : EReal) (a : Mat n d) : Mat n d := fun i => max (a i) z

/-- The largest entry of row `r`, the maximum folded from the value `b`. -/
def rowMax {n d : Nat} (b : EReal) (v : Mat n d) (r : Fin n) : EReal :=
  (Finset.univ : Finset (Fin d)).fold max b (fun l => v (ix2 r l))

/-- Log-softmax along each row, the row's maximum subtracted first:
    (v − max) − log Σ exp (v − max), the sum over the row's entries. -/
def logSoftmaxRows {n d : Nat} (b : EReal) (v : Mat n d) : Mat n d := fun i =>
  (v i - rowMax b v (row i)) - Ideal.log (∑ l : Fin d, Ideal.exp (v (ix2 (row i) l) - rowMax b v (row i)))

/-- The value the word of all zero bits denotes in single precision. -/
abbrev zeroWord : EReal := Ideal.ofBits .f32 0x00000000#32

/-- The value the word of minus infinity denotes in single precision. -/
abbrev negInfWord : EReal := Ideal.ofBits .f32 0xFF800000#32

/-- Folding the maximum from `b` gives at least `b`: taking the maximum with `b` once more changes nothing. -/
theorem max_rowMax {n d : Nat} (b : EReal) (v : Mat n d) (r : Fin n) : max b (rowMax b v r) = rowMax b v r :=
  max_eq_right ((Finset.le_fold_max b).mpr (Or.inl le_rfl))

end Cert.Gcn

end
-- ==== Proof.Out.lean ====
/-
  The function both programs compute, assembled from the dense pieces and the shared edge operations:

      out = logSoftmaxRows (addRow (mix40 (matProd h W₂) e) b₂),   h = clipBelow 0 (addRow (mix64 (matProd x W₁) e) b₁).
-/
import proofs.«150700_j78589311582297_1_alg».proof.Proof.Host
import proofs.«150700_j78589311582297_1_alg».proof.Proof.Fns

noncomputable section

namespace Cert.KernelIdeal.Val

open Idealize.ShloMosaic Idealize.ShloMosaic.TcCoe Idealize.SL.Sem
open Cert.KernelIdeal Cert.Gcn

/-- The two-layer graph convolution with a log-softmax head, as one function of the six argument arrays. -/
def kernelOut (x0 : (⟨S100000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (x4 : (⟨S64x40, .f32⟩ : BufTy).Contents (Elt Ideal)) (x5 : (⟨S40, .f32⟩ : BufTy).Contents (Elt Ideal)) : Mat 100000 40 :=
  logSoftmaxRows negInfWord (addRow (mix40 (matProd (clipBelow zeroWord (addRow (mix64 (matProd x0 x2) x1) (asRow x3))) x4) x1) (asRow x5))

end Cert.KernelIdeal.Val

end
-- ==== Proof.Reg0.lean ====
/- The first matrix product, tile by tile: the kernel multiplies 5000 rows of the features by the whole weight matrix at
   each of 20 grid points; together the tiles are the product of the two arrays as the region finds them. -/
import proofs.«150700_j78589311582297_1_alg».proof.Proof.Gen.KernelIdeal.Frame
import proofs.«150700_j78589311582297_1_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.Gcn

-- the buffer contents a region is entered with: every statement below holds for any such contents
variable (V : (c : Dev nD) → (b : Ref sig .tc) → Buf (Elt Ideal) ((c : Thread nD τ).loc b))

/-! ## One tile of the product, entry by entry -/

/-- In the left operand of the tile's product, the row read for output entry `i` is `i`'s row. -/
theorem lhs_first_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- In the left operand, the column read is the summation index. -/
theorem lhs_first_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- In the right operand, the row read is the summation index. -/
theorem rhs_first_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- In the right operand, the column read for output entry `i` is `i`'s column. -/
theorem rhs_first_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of a tile: narrowing the operands changes no extended real, the accumulator starts at zero, so the
    entry is the sum over l of x0 (p, l) · x1 (l, q). -/
theorem first_tile_apply (x0 : Vec Ideal S5000x128 .f32) (x1 : Vec Ideal S128x64 .f32) (p : Fin 5000) (q : Fin 64) :
    k0_pay1 (F := Ideal) x0 x1 (ix2 p q) = ∑ l : Fin 128, x0 (ix2 p l) * x1 (ix2 l q) := by
  unfold k0_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_first_0 _ _
    | ⟨1, _⟩ => exact (lhs_first_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_first_0 _ _).trans hk
    | ⟨1, _⟩ => exact rhs_first_1 _ _)
  rw [el, er]
  rfl

/-! ## From the tiles to the whole array -/

/-- Each tile is read and written from its first entry on. -/
theorem first_offsets_zero : (![0, 0] : Fin 2 → Nat) = fun _ => 0 := funext fun a => by fin_cases a <;> rfl

/-- Where the blocks sit, decided over the 20 grid points: the block of rows of the features read at a point is the block
    of rows of the output written there and spans every column; the weights are read whole; the output's block spans
    every column and its block row is one of the 20. -/
theorem first_block_positions : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 blocks of rows of the output is some grid point's. -/
theorem first_every_block_met : ∀ q0 : Fin 20, ∃ t : Fin cfg0.N, win0_2.index t = ![q0.val, 0] :=
  (by decide +kernel : ∀ q0 : Fin 20, ∃ t : Fin grid0.N, win0_2.index t = ![q0.val, 0])

/-- What grid point `t` writes back is block `t` of the product of the two arrays: entry (p, q) of the tile is the sum
    over l of features (5000 · block + p, l) · weights (l, q), because row p of the block of features is row
    5000 · block + p of the array and the weights are read as they are. -/
theorem first_tile_written (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero first_offsets_zero]
  simp only [View.ld_unit_zero (S := S5000x128) first_offsets_zero, View.ld_unit_zero (S := S128x64) first_offsets_zero]
  obtain ⟨e0, e1, e2, e3, e4, e5⟩ := first_block_positions t
  funext j
  obtain ⟨p, q, rfl⟩ : ∃ (p : Fin 5000) (q : Fin 64), j = ix2 p q := ⟨j 0, j 1, eq_ix2 j⟩
  refine (first_tile_apply (iblk0 V c 0 t) (iblk0 V c 1 t) p q).trans ?_
  show _ = matProd (V c main_arg0) (V c main_arg2) (((cfg0.win 2).blk t).view.emb (ix2 p q))
  unfold matProd
  refine Finset.sum_congr rfl fun l _ => ?_
  have h0 : iblk0 V c 0 t (ix2 p l)
      = (V c main_arg0 : Mat 100000 128) (ix2 (row (a := 100000) (b := 64) (((cfg0.win 2).blk t).view.emb (ix2 p q))) l) := by
    show V c main_arg0 (((cfg0.win 0).blk t).view.emb (ix2 p l)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * l.val = l.val; omega
  have h1 : iblk0 V c 1 t (ix2 l q)
      = (V c main_arg2 : Mat 128 64) (ix2 l (col (a := 100000) (b := 64) (((cfg0.win 2).blk t).view.emb (ix2 p q)))) := by
    show V c main_arg2 (((cfg0.win 1).blk t).view.emb (ix2 l q)) = _
    refine congrArg (V c main_arg2) (funext fun a => Fin.ext ?_)
    match a with
    | ⟨0, _⟩ => show win0_1.index t (0 : Fin 2) * 128 + 1 * l.val = l.val; omega
    | ⟨1, _⟩ => show win0_1.index t (1 : Fin 2) * 64 + 1 * q.val = win0_2.index t (1 : Fin 2) * 64 + 1 * q.val; omega
  rw [h0, h1]

/-- An entry of the output array lies in point `t`'s tile iff each of its coordinates lies in the tile's range on its axis. -/
theorem in_first_tile_iff (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v33).slice (win0_2.rect t)).set ↔ _
  rw [View.set_slice_whole, Rect.mem_set_unit]
  exact Iff.rfl

/-- The 20 tiles cover the output array: row r lies in the tile whose block row is r / 5000. -/
theorem first_tiles_cover (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  obtain ⟨t, ht⟩ := first_every_block_met ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [in_first_tile_iff]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After region 0 its output array is the matrix product of its two input arrays. -/
theorem region0 (c : Dev nD) :
    (dat0 V c).arrAt 2 cfg0.N = matProd (V c main_arg0) (V c main_arg2) :=
  (dat0 V c).arrAt_eq_of_cover 2 (matProd (V c main_arg0) (V c main_arg2)) (fun t _ => first_tile_written V c t) first_tiles_cover

end Cert.KernelIdeal.Val

end
-- ==== Proof.Reg1.lean ====
/- Bias and clipping, tile by tile: at each of 20 grid points the kernel adds the bias row to 5000 rows and takes the
   maximum with zero; together the tiles are that function of the two arrays as the region finds them. -/
import proofs.«150700_j78589311582297_1_alg».proof.Proof.Gen.KernelIdeal.Frame
import proofs.«150700_j78589311582297_1_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.Gcn

/-- The offset at which the body reads and writes a whole tile: zero on both axes. -/
theorem biasClip_origin : (![0, 0] : Fin 2 → Nat) = fun _ => 0 := funext fun a => by fin_cases a <;> rfl

/-- One entry of a tile after the body's arithmetic: the entry of row `p`, column `q`, plus the bias row's entry in
    column `q`, then the maximum with the value of the zero word. The two casts to the same shape change nothing; the
    one-row array spread over 5000 rows is read in its only row. -/
theorem biasClip_entry (x0 : Vec Ideal S5000x64 .f32) (x1 : Vec Ideal S1x64 .f32) (p : Fin 5000) (q : Fin 64) :
    k1_pay1 (F := Ideal) x0 x1 (ix2 p q) = max (x0 (ix2 p q) + x1 (ix2 (0 : Fin 1) q)) zeroWord := by
  unfold k1_pay1
  refine (maximumf_apply _ _ _).trans ?_
  refine congrArg₂ max ((addf_apply _ _ _).trans (congrArg₂ (· + ·) ?_ ?_)) rfl
  · rw [shapeCast_self]
  · rw [shapeCast_self]
    exact broadcastTo_1b_ab_apply x1 broadcasts_S1x64_S5000x64 p q

/-- The block indices of the three windows over the 20 grid points: the first input's tile moves with the output's along the rows,
    every column index is zero, the bias is always its one block, and the output's row-block index is at most 19. -/
theorem biasClip_block_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the 20 row blocks of the output is some grid point's. -/
theorem biasClip_block_onto : ∀ q0 : Fin 20, ∃ t : Fin cfg1.N, win1_2.index t = ![q0.val, 0] :=
  (by decide +kernel : ∀ q0 : Fin 20, ∃ t : Fin grid1.N, win1_2.index t = ![q0.val, 0])

/-- The clipped sum read at an index: the first array there plus the bias row in that index's column, then the maximum
    with the value of the zero word. Stated with the places the two arrays are read as separate indices, equal to those. -/
theorem biasClip_at (A : Mat 100000 64) (B : Mat 1 64) (i i' : S100000x64.Idx) (k : S1x64.Idx)
    (hi : i' = i) (hk : k = ix2 (0 : Fin 1) (col i)) :
    max (A i' + B k) zeroWord = clipBelow zeroWord (addRow A B) i := by
  subst hi; subst hk; rfl

-- the buffer contents a region is entered with: every statement below holds for any such contents
variable (V : (c : Dev nD) → (b : Ref sig .tc) → Buf (Elt Ideal) ((c : Thread nD τ).loc b))

/-- What grid point `t` writes back is tile `t` of the clipped sum. Row `p`, column `q` of the tile sits in the array at
    row (block index × 5000 + p), column q: the first input's tile is read at exactly that place, and the bias, always its
    one whole block, at row 0 and the same column. -/
theorem biasClip_tile_written (c : Dev nD) (t : Fin cfg1.N) :
    (dat1 V c).flushed 2 t
      = ((cfg1.win 2).blk t).view.read (Elt Ideal) (clipBelow zeroWord (addRow (V c main_v45) (V c main_v46))) := by
  show (cfg1.win 2).cut (grid1.coords t) ((dat1 V c).after 2 t) = _
  rw [after1_2]
  unfold out1_2
  rw [View.canon_unit_zero biasClip_origin]
  simp only [View.ld_unit_zero (S := S5000x64) biasClip_origin, View.ld_unit_zero (S := S1x64) biasClip_origin]
  obtain ⟨e0, e1, e2, e3, e4, e5⟩ := biasClip_block_indices t
  funext j
  obtain ⟨p, q, rfl⟩ : ∃ (p : Fin 5000) (q : Fin 64), j = ix2 p q := ⟨j 0, j 1, eq_ix2 j⟩
  refine (biasClip_entry (iblk1 V c 0 t) (iblk1 V c 1 t) p q).trans ?_
  have hrow : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have hbias : ((cfg1.win 1).blk t).view.emb (ix2 (0 : Fin 1) q)
      = ix2 (0 : Fin 1) (col (((cfg1.win 2).blk t).view.emb (ix2 p q))) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  exact biasClip_at (V c main_v45) (V c main_v46) _ _ _ hrow hbias

/-- An index of the array is in point `t`'s tile iff on each axis it lies in the tile's range. -/
theorem biasClip_mem_tile (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v47).slice (win1_2.rect t)).set ↔ _
  rw [View.set_slice_whole, Rect.mem_set_unit]
  exact Iff.rfl

/-- The 20 tiles fill the array: row `r` lies in the tile of the point whose row-block index is `r / 5000`. -/
theorem biasClip_tiles_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := biasClip_block_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [biasClip_mem_tile]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After region 1 its output array is its first input with the bias row added, clipped below at zero. -/
theorem region1 (c : Dev nD) :
    (dat1 V c).arrAt 2 cfg1.N = clipBelow zeroWord (addRow (V c main_v45) (V c main_v46)) := by
  exact (dat1 V c).arrAt_eq_of_cover 2 _ (fun t _ => biasClip_tile_written V c t) biasClip_tiles_cover

end Cert.KernelIdeal.Val

end
-- ==== Proof.Reg2.lean ====
/- The second matrix product, tile by tile: 5000 rows of the hidden features times the whole second weight matrix at each
   of 20 grid points; together the tiles are the product of the two arrays as the region finds them. -/
import proofs.«150700_j78589311582297_1_alg».proof.Proof.Gen.KernelIdeal.Frame
import proofs.«150700_j78589311582297_1_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.Gcn

-- the buffer contents a region is entered with: every statement below holds for any such contents
variable (V : (c : Dev nD) → (b : Ref sig .tc) → Buf (Elt Ideal) ((c : Thread nD τ).loc b))

/-- Both offsets of a whole-block access are zero. -/
theorem zeroOffsets2 : (![0, 0] : Fin 2 → Nat) = fun _ => 0 := funext fun a => by fin_cases a <;> rfl

/-- The left operand's row is the output's row. -/
theorem lhs_k2_0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- The left operand's column is the summation index. -/
theorem lhs_k2_1 (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
/-- The right operand's row is the summation index. -/
theorem rhs_k2_0 (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
/-- The right operand's column is the output's column. -/
theorem rhs_k2_1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- One entry of a tile of the product: the sum over the 64 hidden features of a row of the left tile times a
    column of the right matrix. The narrowing of both operands changes nothing on extended reals, and the
    accumulator starts at zero. -/
theorem tile_apply (x0 : Vec Ideal S5000x64 .f32) (x1 : Vec Ideal S64x40 .f32) (p : Fin 5000) (q : Fin 40) :
    k2_pay1 (F := Ideal) x0 x1 (ix2 p q) = ∑ l : Fin 64, x0 (ix2 p l) * x1 (ix2 l q) := by
  unfold k2_pay1
  simp only [matmul]
  rw [shapeCast_self]
  refine (Ideal.matmul_constant_zero_apply dot_S5000x64_S64x40_S5000x40_1_0_0_1_n_n none _ _ _).trans ?_
  rw [← Equiv.sum_comp (ValueIdx.contrEquiv1 dot_S5000x64_S64x40_S5000x40_1_0_0_1_n_n 64 rfl rfl).symm]
  refine Finset.sum_congr rfl fun k _ => ?_
  have hk := ValueIdx.contrEquiv1_symm_val dot_S5000x64_S64x40_S5000x40_1_0_0_1_n_n 64 rfl rfl k
  have el : dot_S5000x64_S64x40_S5000x40_1_0_0_1_n_n.lhsIdx (ix2 p q) ((ValueIdx.contrEquiv1 dot_S5000x64_S64x40_S5000x40_1_0_0_1_n_n 64 rfl rfl).symm k) = ix2 p k := funext fun a => Fin.ext (by
    match a with
    | ⟨0, _⟩ => exact lhs_k2_0 _ _
    | ⟨1, _⟩ => exact (lhs_k2_1 _ _).trans hk)
  have er : dot_S5000x64_S64x40_S5000x40_1_0_0_1_n_n.rhsIdx (ix2 p q) ((ValueIdx.contrEquiv1 dot_S5000x64_S64x40_S5000x40_1_0_0_1_n_n 64 rfl rfl).symm k) = ix2 k q := funext fun a => Fin.ext (by
    match a with
    | ⟨0, _⟩ => exact (rhs_k2_0 _ _).trans hk
    | ⟨1, _⟩ => exact rhs_k2_1 _ _)
  rw [el, er]
  rfl

/-- An entry of the matrix product, written out: the sum over the shared axis of row entry times column entry. -/
theorem matProd_entry {n k m : Nat} (x : Mat n k) (w : Mat k m) (i : (⟨2, ![n, m]⟩ : Shape).Idx) :
    matProd x w i = ∑ l : Fin k, x (ix2 (row i) l) * w (ix2 l (col i)) := rfl

/-- The block indices over the grid: the left operand's tile sits in the same block row as the output's tile, in block
    column zero; the right operand is its one whole block; the output's tiles are in block column zero, block rows 0 to 19. -/
theorem blockIdx2 : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every block row of the output is some grid point's. -/
theorem blockOnto2 : ∀ q0 : Fin 20, ∃ t : Fin cfg2.N, win2_2.index t = ![q0.val, 0] :=
  (by decide +kernel : ∀ q0 : Fin 20, ∃ t : Fin grid2.N, win2_2.index t = ![q0.val, 0])

/-- What grid point `t` writes back is tile `t` of the product of the two arrays: entry (p, q) of the tile is the sum
    over l of the left tile's (p, l), which is the left array's (5000 · block row + p, l), times the right array's (l, q). -/
theorem flushed2_eq (c : Dev nD) (t : Fin cfg2.N) :
    (dat2 V c).flushed 2 t = ((cfg2.win 2).blk t).view.read (Elt Ideal) (matProd (V c main_v47) (V c main_arg4)) := by
  show (cfg2.win 2).cut (grid2.coords t) ((dat2 V c).after 2 t) = _
  rw [after2_2]
  unfold out2_2
  rw [View.canon_unit_zero zeroOffsets2]
  simp only [View.ld_unit_zero (S := S5000x64) zeroOffsets2, View.ld_unit_zero (S := S64x40) zeroOffsets2]
  obtain ⟨e0, e1, e2, e3, e4, e5⟩ := blockIdx2 t
  funext j
  obtain ⟨p, q, rfl⟩ : ∃ (p : Fin 5000) (q : Fin 40), j = ix2 p q := ⟨j 0, j 1, eq_ix2 j⟩
  refine (tile_apply (iblk2 V c 0 t) (iblk2 V c 1 t) p q).trans ?_
  show _ = matProd (V c main_v47) (V c main_arg4) (((cfg2.win 2).blk t).view.emb (ix2 p q))
  rw [matProd_entry]
  refine Finset.sum_congr rfl fun l _ => ?_
  refine congrArg₂ (fun a b : EReal => a * b) ?_ ?_
  · show V c main_v47 (((cfg2.win 0).blk t).view.emb (ix2 p l)) = _
    refine congrArg (V c main_v47) ?_
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * l.val = l.val; omega
  · show V c main_arg4 (((cfg2.win 1).blk t).view.emb (ix2 l q)) = _
    refine congrArg (V c main_arg4) ?_
    funext a; apply Fin.ext
    match a with
    | ⟨0, _⟩ => show win2_1.index t (0 : Fin 2) * 64 + 1 * l.val = l.val; omega
    | ⟨1, _⟩ => show win2_1.index t (1 : Fin 2) * 40 + 1 * q.val = win2_2.index t (1 : Fin 2) * 40 + 1 * q.val; omega

/-- An index of the output array is in point `t`'s tile iff each coordinate is in the tile's range on its axis. -/
theorem mem_tile2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v48).slice (win2_2.rect t)).set ↔ _
  rw [View.set_slice_whole, Rect.mem_set_unit]
  exact Iff.rfl

/-- The twenty tiles cover the output array: row r lies in the tile of block row r / 5000. -/
theorem tiles_cover2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := blockOnto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_tile2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- After region 2 its output array is the matrix product of its two input arrays. -/
theorem region2 (c : Dev nD) :
    (dat2 V c).arrAt 2 cfg2.N = matProd (V c main_v47) (V c main_arg4) := by
  exact (dat2 V c).arrAt_eq_of_cover 2 (matProd (V c main_v47) (V c main_arg4)) (fun t _ => flushed2_eq V c t) tiles_cover2

end Cert.KernelIdeal.Val

end
-- ==== Proof.Reg3.lean ====
/- Bias and log-softmax, tile by tile: at each of 20 grid points the kernel adds the bias row to 5000 rows and takes the
   log-softmax of each row (the row's maximum subtracted first); a row's result depends on that row only, so together
   the tiles are the row-wise function of the two arrays as the region finds them. -/
import proofs.«150700_j78589311582297_1_alg».proof.Proof.Gen.KernelIdeal.Frame
import proofs.«150700_j78589311582297_1_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.Gcn

-- the buffer contents a region is entered with: every statement below holds for any such contents
variable (V : (c : Dev nD) → (b : Ref sig .tc) → Buf (Elt Ideal) ((c : Thread nD τ).loc b))

/-- The zero offsets of a whole-block access, as the constant function. -/
theorem zeroOffsets3 : (![0, 0] : Fin 2 → Nat) = fun _ => 0 := funext fun a => by fin_cases a <;> rfl

/-! ## A vector kept as a column, and a column spread over the columns of a block -/

/-- An `[a]` vector cast to the column `[a, 1]` reads, at `(i, u)`, the operand at `i`, whatever the unit coordinate `u`. -/
theorem shapeCast_vec_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two reductions along a block's rows, read at a row -/

/-- Along the columns of a `[5000, 40]` block, the index that row `r` and column `l` name is `(r, l)`. -/
theorem liftRow3 (r : Fin 5000) (l : Fin 40) : reduces_S5000x40_S5000.lift (ix1 r) l = ix2 r l :=
  funext fun a => Fin.ext (match a with | ⟨0, _⟩ => rfl | ⟨1, _⟩ => rfl)

/-- The maximum along the columns, folded from minus infinity, is at row `r` that row's `rowMax`. -/
theorem rowMax_read3 (v : FVec Ideal S5000x40 .f32) (hφ : FKind.Formats .f32)
    (hacc : (0xFF800000#32 : BitVec 32) = FKind.maximumf.neutral .f32 hφ) (r : Fin 5000) :
    multiReduction (F := Ideal) .maximumf [1] S5000 v 0xFF800000#32 reduces_S5000x40_S5000 hφ hacc (ix1 r)
      = rowMax negInfWord v r := by
  refine (Ideal.multiReduction_maximumf_single v _ reduces_S5000x40_S5000 hφ hacc (ix1 r)).trans ?_
  exact congrArg (fun f => (Finset.univ : Finset (Fin 40)).fold max negInfWord f)
    (funext fun l => congrArg v (liftRow3 r l))

/-- The sum along the columns is at row `r` the sum of that row's forty entries. -/
theorem rowSum_read3 (w : FVec Ideal S5000x40 .f32) (hφ : FKind.Formats .f32)
    (hacc : (0x00000000#32 : BitVec 32) = FKind.add.neutral .f32 hφ) (r : Fin 5000) :
    multiReduction (F := Ideal) .add [1] S5000 w 0x00000000#32 reduces_S5000x40_S5000 hφ hacc (ix1 r)
      = ∑ l : Fin 40, w (ix2 r l) := by
  refine (Ideal.multiReduction_add_single w _ reduces_S5000x40_S5000 hφ hacc (ix1 r)).trans ?_
  exact Finset.sum_congr rfl fun l _ => congrArg w (liftRow3 r l)

/-- A block's row maxima, kept as a column and spread back over the block. -/
def maxCols3 (v : FVec Ideal S5000x40 .f32) : FVec Ideal S5000x40 .f32 :=
  broadcastTo S5000x40
    (shapeCast S5000x1
      (multiReduction (F := Ideal) .maximumf [1] S5000 v 0xFF800000#32 reduces_S5000x40_S5000 (.inl rfl) rfl)
      shapeCasts_S5000_S5000x1)
    broadcasts_S5000x1_S5000x40

/-- At `(p, q)` it is row `p`'s maximum. -/
theorem maxCols3_apply (v : FVec Ideal S5000x40 .f32) (p : Fin 5000) (q : Fin 40) :
    maxCols3 v (ix2 p q) = rowMax negInfWord v p := by
  unfold maxCols3
  refine (broadcastTo_col_apply _ _ p q).trans ?_
  refine (shapeCast_vec_col_apply _ _ p (0 : Fin 1)).trans ?_
  exact rowMax_read3 v _ _ p

/-- The logarithm of a block's row sums, kept as a column and spread back over the block. -/
def logSumCols3 (w : FVec Ideal S5000x40 .f32) : FVec Ideal S5000x40 .f32 :=
  broadcastTo S5000x40
    (log (shapeCast S5000x1
      (multiReduction (F := Ideal) .add [1] S5000 w 0x00000000#32 reduces_S5000x40_S5000 (.inl rfl) rfl)
      shapeCasts_S5000_S5000x1))
    broadcasts_S5000x1_S5000x40

/-- At `(p, q)` it is the logarithm of row `p`'s sum. -/
theorem logSumCols3_apply (w : FVec Ideal S5000x40 .f32) (p : Fin 5000) (q : Fin 40) :
    logSumCols3 w (ix2 p q) = Ideal.log (∑ l : Fin 40, w (ix2 p l)) := by
  unfold logSumCols3
  refine (broadcastTo_col_apply _ _ p q).trans ?_
  show Ideal.log (shapeCast S5000x1 _ shapeCasts_S5000_S5000x1 (ix2 p (0 : Fin 1))) = _
  refine congrArg Ideal.log ?_
  refine (shapeCast_vec_col_apply _ _ p (0 : Fin 1)).trans ?_
  exact rowSum_read3 w _ _ p

/-! ## The body's arithmetic at an entry of its block -/

/-- The bias row spread over the block and added: the block with the bias row added to every row. -/
theorem biased_eq3 (x0 : Vec Ideal S5000x40 .f32) (x1 : Vec Ideal S1x40 .f32) :
    (addf (F := Ideal) (shapeCast S5000x40 x0 shapeCasts_S5000x40_S5000x40)
        (broadcastTo S5000x40 (shapeCast S1x40 x1 shapeCasts_S1x40_S1x40) broadcasts_S1x40_S5000x40)
      : FVec Ideal S5000x40 .f32) = addRow x0 x1 := by
  funext i
  obtain ⟨p, q, rfl⟩ : ∃ (p : Fin 5000) (q : Fin 40), i = ix2 p q := ⟨i 0, i 1, eq_ix2 i⟩
  rw [shapeCast_self, shapeCast_self]
  show x0 (ix2 p q) + broadcastTo S5000x40 x1 broadcasts_S1x40_S5000x40 (ix2 p q) = x0 (ix2 p q) + x1 (ix2 (0 : Fin 1) q)
  rw [broadcastTo_1b_ab_apply]

/-- The body's result on a block: the log-softmax of each row of the block with the bias row added. -/
theorem pay_eq3 (x0 : Vec Ideal S5000x40 .f32) (x1 : Vec Ideal S1x40 .f32) :
    k3_pay1 (F := Ideal) x0 x1 = logSoftmaxRows negInfWord (addRow x0 x1) := by
  have hpay : k3_pay1 (F := Ideal) x0 x1
      = (fun v5 : FVec Ideal S5000x40 .f32 => subf (subf v5 (maxCols3 v5)) (logSumCols3 (exp (subf v5 (maxCols3 v5)))))
          (addf (shapeCast S5000x40 x0 shapeCasts_S5000x40_S5000x40)
            (broadcastTo S5000x40 (shapeCast S1x40 x1 shapeCasts_S1x40_S1x40) broadcasts_S1x40_S5000x40)) := rfl
  rw [hpay, biased_eq3]
  funext i
  obtain ⟨p, q, rfl⟩ : ∃ (p : Fin 5000) (q : Fin 40), i = ix2 p q := ⟨i 0, i 1, eq_ix2 i⟩
  show (addRow x0 x1 (ix2 p q) - maxCols3 (addRow x0 x1) (ix2 p q))
      - logSumCols3 (exp (subf (addRow x0 x1) (maxCols3 (addRow x0 x1)))) (ix2 p q) = _
  rw [maxCols3_apply, logSumCols3_apply]
  show _ = (addRow x0 x1 (ix2 p q) - rowMax negInfWord (addRow x0 x1) p)
      - Ideal.log (∑ l : Fin 40, Ideal.exp (addRow x0 x1 (ix2 p l) - rowMax negInfWord (addRow x0 x1) p))
  refine congrArg (fun s => (addRow x0 x1 (ix2 p q) - rowMax negInfWord (addRow x0 x1) p) - Ideal.log s) ?_
  refine Finset.sum_congr rfl fun l _ => ?_
  show Ideal.exp (addRow x0 x1 (ix2 p l) - maxCols3 (addRow x0 x1) (ix2 p l)) = _
  rw [maxCols3_apply]

/-! ## A row's result depends on that row only -/

/-- Two arrays that agree along one row each, under bias rows that agree, have the same log-softmax at
    entries of those rows in the same column. -/
theorem logSoftmaxRows_addRow_congr {n n' d : Nat} (b : EReal) (A : Mat n d) (A' : Mat n' d) (B B' : Mat 1 d)
    (i : (⟨2, ![n, d]⟩ : Shape).Idx) (i' : (⟨2, ![n', d]⟩ : Shape).Idx) (hc : col i = col i')
    (hA : ∀ l : Fin d, A (ix2 (row i) l) = A' (ix2 (row i') l))
    (hB : ∀ l : Fin d, B (ix2 (0 : Fin 1) l) = B' (ix2 (0 : Fin 1) l)) :
    logSoftmaxRows b (addRow A B) i = logSoftmaxRows b (addRow A' B') i' := by
  have hv : ∀ l : Fin d, addRow A B (ix2 (row i) l) = addRow A' B' (ix2 (row i') l) := fun l => by
    show A (ix2 (row i) l) + B (ix2 (0 : Fin 1) l) = A' (ix2 (row i') l) + B' (ix2 (0 : Fin 1) l)
    rw [hA l, hB l]
  have hm : rowMax b (addRow A B) (row i) = rowMax b (addRow A' B') (row i') :=
    congrArg (fun f => (Finset.univ : Finset (Fin d)).fold max b f) (funext hv)
  have hi : addRow A B i = addRow A' B' i' :=
    (congrArg (addRow A B) (eq_row_col i)).trans
      ((hv (col i)).trans (congrArg (addRow A' B') ((congrArg (ix2 (row i')) hc).trans (eq_row_col i').symm)))
  show (addRow A B i - rowMax b (addRow A B) (row i))
      - Ideal.log (∑ l : Fin d, Ideal.exp (addRow A B (ix2 (row i) l) - rowMax b (addRow A B) (row i)))
    = (addRow A' B' i' - rowMax b (addRow A' B') (row i'))
      - Ideal.log (∑ l : Fin d, Ideal.exp (addRow A' B' (ix2 (row i') l) - rowMax b (addRow A' B') (row i')))
  rw [hi, hm]
  exact congrArg (fun s => (addRow A' B' i' - rowMax b (addRow A' B') (row i')) - Ideal.log s)
    (Finset.sum_congr rfl fun l _ => by rw [hv l])

/-! ## From the blocks to the array -/

/-- The index maps over the grid: the first input's block moves with the output's along the rows, the
    bias row is always the whole array, and nothing moves along the columns. -/
theorem idx_facts3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 19 :=
  (by decide +kernel : ∀ t : Fin grid3.N, _)

/-- Every one of the twenty row tiles is some grid point's. -/
theorem idx_onto3 : ∀ q0 : Fin 20, ∃ t : Fin cfg3.N, win3_2.index t = ![q0.val, 0] :=
  (by decide +kernel : ∀ q0 : Fin 20, ∃ t : Fin grid3.N, win3_2.index t = ![q0.val, 0])

/-- What grid point `t` writes back is tile `t` of the row-wise function of the two arrays. -/
theorem flushed_eq3 (c : Dev nD) (t : Fin cfg3.N) :
    (dat3 V c).flushed 2 t = ((cfg3.win 2).blk t).view.read (Elt Ideal)
      (logSoftmaxRows negInfWord (addRow (V c main_v60) (V c main_v61))) := by
  show (cfg3.win 2).cut (grid3.coords t) ((dat3 V c).after 2 t) = _
  rw [after3_2]
  unfold out3_2
  rw [View.canon_unit_zero zeroOffsets3]
  simp only [View.ld_unit_zero (S := S5000x40) zeroOffsets3, View.ld_unit_zero (S := S1x40) zeroOffsets3]
  rw [pay_eq3]
  obtain ⟨e0, e1, e2, e3, e4, e5⟩ := idx_facts3 t
  funext j
  obtain ⟨p, q, rfl⟩ : ∃ (p : Fin 5000) (q : Fin 40), j = ix2 p q := ⟨j 0, j 1, eq_ix2 j⟩
  show logSoftmaxRows negInfWord (addRow (iblk3 V c 0 t) (iblk3 V c 1 t)) (ix2 p q)
    = logSoftmaxRows negInfWord (addRow (V c main_v60) (V c main_v61)) (((cfg3.win 2).blk t).view.emb (ix2 p q))
  refine logSoftmaxRows_addRow_congr negInfWord _ _ _ _ _ _ ?_ ?_ ?_
  · refine Fin.ext ?_
    show q.val = win3_2.index t (1 : Fin 2) * 40 + 1 * q.val
    omega
  · intro l
    show V c main_v60 (((cfg3.win 0).blk t).view.emb (ix2 p l))
      = V c main_v60 (ix2 (row (((cfg3.win 2).blk t).view.emb (ix2 p q))) l)
    refine congrArg (V c main_v60) (funext fun a => Fin.ext ?_)
    match a with
    | ⟨0, _⟩ =>
      show win3_0.index t (0 : Fin 2) * 5000 + 1 * p.val = win3_2.index t (0 : Fin 2) * 5000 + 1 * p.val
      omega
    | ⟨1, _⟩ =>
      show win3_0.index t (1 : Fin 2) * 40 + 1 * l.val = l.val
      omega
  · intro l
    show V c main_v61 (((cfg3.win 1).blk t).view.emb (ix2 (0 : Fin 1) l)) = V c main_v61 (ix2 (0 : Fin 1) l)
    refine congrArg (V c main_v61) (funext fun a => Fin.ext ?_)
    match a with
    | ⟨0, _⟩ =>
      show win3_1.index t (0 : Fin 2) * 1 + 1 * 0 = 0
      omega
    | ⟨1, _⟩ =>
      show win3_1.index t (1 : Fin 2) * 40 + 1 * l.val = l.val
      omega

/-- An index of the output array is in grid point `t`'s tile iff each coordinate is in the tile's range. -/
theorem mem_blk3 (t : Fin cfg3.N) (i : S100000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v62).slice (win3_2.rect t)).set ↔ _
  rw [View.set_slice_whole, Rect.mem_set_unit]
  exact Iff.rfl

/-- Every index of the output array is in the tile of the grid point whose tile number is the row divided by 5000. -/
theorem cover3 (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 40 ≤ (i 1).val ∧ (i 1).val < win3_2.index t (1 : Fin 2) * 40 + 40
    omega

/-- After region 3 its output array is the row-wise log-softmax of its first input with the bias row added. -/
theorem region3 (c : Dev nD) :
    (dat3 V c).arrAt 2 cfg3.N = logSoftmaxRows negInfWord (addRow (V c main_v60) (V c main_v61)) := by
  exact (dat3 V c).arrAt_eq_of_cover 2 _ (fun t _ => flushed_eq3 V c t) cover3

end Cert.KernelIdeal.Val

end
-- ==== Proof.Walk.lean ====
/-
  The kernel program's result as one function of its arguments.

  The program is five stretches of array operations around four tiled regions. Walking from the launch to the return,
  each buffer the result depends on is named at every boundary: the edges' ends and weights (built once, before the first
  region, and carried unchanged from then on), the first product, its mixing along the edges, the bias and clipping, the
  second product, its mixing, and the bias and log-softmax. Each region contributes the whole-array function its tiles
  add up to; each stretch the operations it applies to the buffers it reads. Composed, the result is

      logSoftmaxRows (addRow (mix40 (matProd (clipBelow 0 (addRow (mix64 (matProd x W₁) e) b₁)) W₂) e) b₂).
-/
import proofs.«150700_j78589311582297_1_alg».proof.Proof.Gen.KernelIdeal.Frame
import proofs.«150700_j78589311582297_1_alg».proof.Proof.Host
import proofs.«150700_j78589311582297_1_alg».proof.Proof.Fns
import proofs.«150700_j78589311582297_1_alg».proof.Proof.Out
import proofs.«150700_j78589311582297_1_alg».proof.Proof.Reg0
import proofs.«150700_j78589311582297_1_alg».proof.Proof.Reg1
import proofs.«150700_j78589311582297_1_alg».proof.Proof.Reg2
import proofs.«150700_j78589311582297_1_alg».proof.Proof.Reg3
import Idealize.ShloMosaic.Lib.StableHlo.Run
import Idealize.ShloMosaic.Lib.ValueLayout

set_option maxRecDepth 16384

noncomputable section

namespace Cert.KernelIdeal.Val

open Idealize.ShloMosaic Idealize.ShloMosaic.TcCoe Idealize.SL.Sem Idealize.ShloMosaic.StableHlo Idealize.ShloMosaic.ValueIdx
open Cert.KernelIdeal Cert.KernelIdeal.Gen Cert.Gcn

section AnyFloats
variable {F : FTy → Type} [FloatOps F]

/-! ## Each stretch of host operations, from any buffer contents `W`

Every buffer a stretch writes is a function of the buffers it reads; a buffer it does not write keeps its contents. -/

section Stretch
variable (W : Valuation τ sig (Elt F))

/-! The first stretch builds the two ends of every edge from the edge list, whether each degree is positive, the
    inverse square roots of the degrees, and the zero the next stretch fills in. -/
theorem s0_v3 : StableHlo.after hostOps0 W (Proc.devRef .tc main_v3) = srcIx (W (Proc.devRef .tc main_arg1)) := by
  after_results_simp <;> (try simp only [TRef.ofBuf, TRef.toBuf, cast_eq]) <;> rfl
theorem s0_v6 : StableHlo.after hostOps0 W (Proc.devRef .tc main_v6) = dstIx (W (Proc.devRef .tc main_arg1)) := by
  after_results_simp <;> (try simp only [TRef.ofBuf, TRef.toBuf, cast_eq]) <;> rfl
theorem s0_v12 : StableHlo.after hostOps0 W (Proc.devRef .tc main_v12) = degPos (W (Proc.devRef .tc main_arg1)) := by
  after_results_simp <;> (try simp only [TRef.ofBuf, TRef.toBuf, cast_eq]) <;> rfl
theorem s0_v15 : StableHlo.after hostOps0 W (Proc.devRef .tc main_v15) = rsqrtDeg (W (Proc.devRef .tc main_arg1)) := by
  after_results_simp <;> (try simp only [TRef.ofBuf, TRef.toBuf, cast_eq]) <;> rfl
theorem s0_cst3 : StableHlo.after hostOps0 W (Proc.devRef .tc main_cst_3) = constant S_ .f32 0x00000000#32 := by
  after_results_simp <;> (try simp only [TRef.ofBuf, TRef.toBuf, cast_eq]) <;> rfl
theorem s0_keep_arg0 : StableHlo.after hostOps0 W (Proc.devRef .tc main_arg0) = W (Proc.devRef .tc main_arg0) := by
  after_results_simp <;> (try simp only [TRef.ofBuf, TRef.toBuf, cast_eq]) <;> rfl
theorem s0_keep_arg1 : StableHlo.after hostOps0 W (Proc.devRef .tc main_arg1) = W (Proc.devRef .tc main_arg1) := by
  after_results_simp <;> (try simp only [TRef.ofBuf, TRef.toBuf, cast_eq]) <;> rfl
theorem s0_keep_arg2 : StableHlo.after hostOps0 W (Proc.devRef .tc main_arg2) = W (Proc.devRef .tc main_arg2) := by
  after_results_simp <;> (try simp only [TRef.ofBuf, TRef.toBuf, cast_eq]) <;> rfl
theorem s0_keep_arg3 : StableHlo.after hostOps0 W (Proc.devRef .tc main_arg3) = W (Proc.devRef .tc main_arg3) := by
  after_results_simp <;> (try simp only [TRef.ofBuf, TRef.toBuf, cast_eq]) <;> rfl
theorem s0_keep_arg4 : StableHlo.after hostOps0 W (Proc.devRef .tc main_arg4) = W (Proc.devRef .tc main_arg4) := by
  after_results_simp <;> (try simp only [TRef.ofBuf, TRef.toBuf, cast_eq]) <;> rfl
theorem s0_keep_arg5 : StableHlo.after hostOps0 W (Proc.devRef .tc main_arg5) = W (Proc.devRef .tc main_arg5) := by
  after_results_simp <;> (try simp only [TRef.ofBuf, TRef.toBuf, cast_eq]) <;> rfl

/-! The second stretch fills zero where the degree is not positive. -/
theorem s01_v16 : StableHlo.after hostOps0_1 W (Proc.devRef .tc main_v16) = whereOr (W (Proc.devRef .tc main_v12)) (W (Proc.devRef .tc main_v15)) (W (Proc.devRef .tc main_cst_3)) := by
  after_results_simp <;> (try simp only [TRef.ofBuf, TRef.toBuf, cast_eq]) <;> rfl
theorem s01_keep_v3 : StableHlo.after hostOps0_1 W (Proc.devRef .tc main_v3) = W (Proc.devRef .tc main_v3) := by
  after_results_simp <;> (try simp only [TRef.ofBuf, TRef.toBuf, cast_eq]) <;> rfl
theorem s01_keep_v6 : StableHlo.after hostOps0_1 W (Proc.devRef .tc main_v6) = W (Proc.devRef .tc main_v6) := by
  after_results_simp <;> (try simp only [TRef.ofBuf, TRef.toBuf, cast_eq]) <;> rfl
theorem s01_keep_arg0 : StableHlo.after hostOps0_1 W (Proc.devRef .tc main_arg0) = W (Proc.devRef .tc main_arg0) := by
  after_results_simp <;> (try simp only [TRef.ofBuf, TRef.toBuf, cast_eq]) <;> rfl
theorem s01_keep_arg1 : StableHlo.after hostOps0_1 W (Proc.devRef .tc main_arg1) = W (Proc.devRef .tc main_arg1) := by
  after_results_simp <;> (try simp only [TRef.ofBuf, TRef.toBuf, cast_eq]) <;> rfl
theorem s01_keep_arg2 : StableHlo.after hostOps0_1 W (Proc.devRef .tc main_arg2) = W (Proc.devRef .tc main_arg2) := by
  after_results_simp <;> (try simp only [TRef.ofBuf, TRef.toBuf, cast_eq]) <;> rfl
theorem s01_keep_arg3 : StableHlo.after hostOps0_1 W (Proc.devRef .tc main_arg3) = W (Proc.devRef .tc main_arg3) := by
  after_results_simp <;> (try simp only [TRef.ofBuf, TRef.toBuf, cast_eq]) <;> rfl
theorem s01_keep_arg4 : StableHlo.after hostOps0_1 W (Proc.devRef .tc main_arg4) = W (Proc.devRef .tc main_arg4) := by
  after_results_simp <;> (try simp only [TRef.ofBuf, TRef.toBuf, cast_eq]) <;> rfl
theorem s01_keep_arg5 : StableHlo.after hostOps0_1 W (Proc.devRef .tc main_arg5) = W (Proc.devRef .tc main_arg5) := by
  after_results_simp <;> (try simp only [TRef.ofBuf, TRef.toBuf, cast_eq]) <;> rfl

/-! The third stretch weighs every edge. -/
theorem s02_v32 : StableHlo.after hostOps0_2 W (Proc.devRef .tc main_v32) = edgeWeightOf (W (Proc.devRef .tc main_v16)) (W (Proc.devRef .tc main_v3)) (W (Proc.devRef .tc main_v6)) := by
  after_results_simp <;> (try simp only [TRef.ofBuf, TRef.toBuf, cast_eq]) <;> rfl
theorem s02_keep_v3 : StableHlo.after hostOps0_2 W (Proc.devRef .tc main_v3) = W (Proc.devRef .tc main_v3) := by
  after_results_simp <;> (try simp only [TRef.ofBuf, TRef.toBuf, cast_eq]) <;> rfl
theorem s02_keep_v6 : StableHlo.after hostOps0_2 W (Proc.devRef .tc main_v6) = W (Proc.devRef .tc main_v6) := by
  after_results_simp <;> (try simp only [TRef.ofBuf, TRef.toBuf, cast_eq]) <;> rfl
theorem s02_keep_arg0 : StableHlo.after hostOps0_2 W (Proc.devRef .tc main_arg0) = W (Proc.devRef .tc main_arg0) := by
  after_results_simp <;> (try simp only [TRef.ofBuf, TRef.toBuf, cast_eq]) <;> rfl
theorem s02_keep_arg1 : StableHlo.after hostOps0_2 W (Proc.devRef .tc main_arg1) = W (Proc.devRef .tc main_arg1) := by
  after_results_simp <;> (try simp only [TRef.ofBuf, TRef.toBuf, cast_eq]) <;> rfl
theorem s02_keep_arg2 : StableHlo.after hostOps0_2 W (Proc.devRef .tc main_arg2) = W (Proc.devRef .tc main_arg2) := by
  after_results_simp <;> (try simp only [TRef.ofBuf, TRef.toBuf, cast_eq]) <;> rfl
theorem s02_keep_arg3 : StableHlo.after hostOps0_2 W (Proc.devRef .tc main_arg3) = W (Proc.devRef .tc main_arg3) := by
  after_results_simp <;> (try simp only [TRef.ofBuf, TRef.toBuf, cast_eq]) <;> rfl
theorem s02_keep_arg4 : StableHlo.after hostOps0_2 W (Proc.devRef .tc main_arg4) = W (Proc.devRef .tc main_arg4) := by
  after_results_simp <;> (try simp only [TRef.ofBuf, TRef.toBuf, cast_eq]) <;> rfl
theorem s02_keep_arg5 : StableHlo.after hostOps0_2 W (Proc.devRef .tc main_arg5) = W (Proc.devRef .tc main_arg5) := by
  after_results_simp <;> (try simp only [TRef.ofBuf, TRef.toBuf, cast_eq]) <;> rfl

/-! Between the first product and the clipping: the first layer's mixing, and the first bias laid out as a row. -/
theorem s1_v45 : StableHlo.after hostOps1 W (Proc.devRef .tc main_v45) = mixWith64 (W (Proc.devRef .tc main_v33)) (W (Proc.devRef .tc main_v3)) (W (Proc.devRef .tc main_v6)) (W (Proc.devRef .tc main_v32)) := by
  after_results_simp <;> (try simp only [TRef.ofBuf, TRef.toBuf, cast_eq]) <;> rfl
theorem s1_v46 : StableHlo.after hostOps1 W (Proc.devRef .tc main_v46) = shapeCast S1x64 (W (Proc.devRef .tc main_arg3)) shapeCasts_S64_S1x64 := by
  after_results_simp <;> (try simp only [TRef.ofBuf, TRef.toBuf, cast_eq]) <;> rfl
theorem s1_keep_v3 : StableHlo.after hostOps1 W (Proc.devRef .tc main_v3) = W (Proc.devRef .tc main_v3) := by
  after_results_simp <;> (try simp only [TRef.ofBuf, TRef.toBuf, cast_eq]) <;> rfl
theorem s1_keep_v6 : StableHlo.after hostOps1 W (Proc.devRef .tc main_v6) = W (Proc.devRef .tc main_v6) := by
  after_results_simp <;> (try simp only [TRef.ofBuf, TRef.toBuf, cast_eq]) <;> rfl
theorem s1_keep_v32 : StableHlo.after hostOps1 W (Proc.devRef .tc main_v32) = W (Proc.devRef .tc main_v32) := by
  after_results_simp <;> (try simp only [TRef.ofBuf, TRef.toBuf, cast_eq]) <;> rfl
theorem s1_keep_arg4 : StableHlo.after hostOps1 W (Proc.devRef .tc main_arg4) = W (Proc.devRef .tc main_arg4) := by
  after_results_simp <;> (try simp only [TRef.ofBuf, TRef.toBuf, cast_eq]) <;> rfl
theorem s1_keep_arg5 : StableHlo.after hostOps1 W (Proc.devRef .tc main_arg5) = W (Proc.devRef .tc main_arg5) := by
  after_results_simp <;> (try simp only [TRef.ofBuf, TRef.toBuf, cast_eq]) <;> rfl

/-! Between the second product and the log-softmax: the second layer's mixing, and the second bias laid out as a row. -/
theorem s3_v60 : StableHlo.after hostOps3 W (Proc.devRef .tc main_v60) = mixWith40 (W (Proc.devRef .tc main_v48)) (W (Proc.devRef .tc main_v3)) (W (Proc.devRef .tc main_v6)) (W (Proc.devRef .tc main_v32)) := by
  after_results_simp <;> (try simp only [TRef.ofBuf, TRef.toBuf, cast_eq]) <;> rfl
theorem s3_v61 : StableHlo.after hostOps3 W (Proc.devRef .tc main_v61) = shapeCast S1x40 (W (Proc.devRef .tc main_arg5)) shapeCasts_S40_S1x40 := by
  after_results_simp <;> (try simp only [TRef.ofBuf, TRef.toBuf, cast_eq]) <;> rfl

end Stretch

end AnyFloats

/-! ## The buffers at every boundary, at the exact values -/

section Boundaries
variable (m : (ℓ : Loc nD τ sig) → Buf (Elt Ideal) ℓ) (ρ : Dev nD → PrngReg) (c : Dev nD)

/-- The arguments as launched. -/
abbrev a0 : (⟨S100000x128, .f32⟩ : BufTy).Contents (Elt Ideal) := m ((c : Thread nD τ).loc main_arg0)
abbrev a1 : (⟨S2x800000, .i32⟩ : BufTy).Contents (Elt Ideal) := m ((c : Thread nD τ).loc main_arg1)
abbrev a2 : (⟨S128x64, .f32⟩ : BufTy).Contents (Elt Ideal) := m ((c : Thread nD τ).loc main_arg2)
abbrev a3 : (⟨S64, .f32⟩ : BufTy).Contents (Elt Ideal) := m ((c : Thread nD τ).loc main_arg3)
abbrev a4 : (⟨S64x40, .f32⟩ : BufTy).Contents (Elt Ideal) := m ((c : Thread nD τ).loc main_arg4)
abbrev a5 : (⟨S40, .f32⟩ : BufTy).Contents (Elt Ideal) := m ((c : Thread nD τ).loc main_arg5)

/-! After the first stretch. -/
theorem W1_v3 : W1 m ρ c (Proc.devRef .tc main_v3) = srcIx (a1 m c) := s0_v3 (W0 m ρ c)
theorem W1_v6 : W1 m ρ c (Proc.devRef .tc main_v6) = dstIx (a1 m c) := s0_v6 (W0 m ρ c)
theorem W1_v12 : W1 m ρ c (Proc.devRef .tc main_v12) = degPos (a1 m c) := s0_v12 (W0 m ρ c)
theorem W1_v15 : W1 m ρ c (Proc.devRef .tc main_v15) = rsqrtDeg (a1 m c) := s0_v15 (W0 m ρ c)
theorem W1_cst3 : W1 m ρ c (Proc.devRef .tc main_cst_3) = constant (F := Ideal) S_ .f32 0x00000000#32 := s0_cst3 (W0 m ρ c)

/-! After the second stretch. -/
theorem W2_v16 : W2 m ρ c (Proc.devRef .tc main_v16) = invSqrtDeg (a1 m c) := by
  refine (s01_v16 (W1 m ρ c)).trans ?_
  rw [W1_v12, W1_v15, W1_cst3]; rfl
theorem W2_v3 : W2 m ρ c (Proc.devRef .tc main_v3) = srcIx (a1 m c) := (s01_keep_v3 (W1 m ρ c)).trans (W1_v3 m ρ c)
theorem W2_v6 : W2 m ρ c (Proc.devRef .tc main_v6) = dstIx (a1 m c) := (s01_keep_v6 (W1 m ρ c)).trans (W1_v6 m ρ c)

/-! After the third stretch: the entry of the first region. The edges' ends and weights are final from here on. -/
theorem W3_v32 : W3 m ρ c (Proc.devRef .tc main_v32) = edgeWeight (a1 m c) := by
  refine (s02_v32 (W2 m ρ c)).trans ?_
  rw [W2_v16, W2_v3, W2_v6]; rfl
theorem W3_v3 : W3 m ρ c (Proc.devRef .tc main_v3) = srcIx (a1 m c) := (s02_keep_v3 (W2 m ρ c)).trans (W2_v3 m ρ c)
theorem W3_v6 : W3 m ρ c (Proc.devRef .tc main_v6) = dstIx (a1 m c) := (s02_keep_v6 (W2 m ρ c)).trans (W2_v6 m ρ c)
theorem W3_arg0 : W3 m ρ c (Proc.devRef .tc main_arg0) = a0 m c :=
  (s02_keep_arg0 (W2 m ρ c)).trans ((s01_keep_arg0 (W1 m ρ c)).trans (s0_keep_arg0 (W0 m ρ c)))
theorem W3_arg2 : W3 m ρ c (Proc.devRef .tc main_arg2) = a2 m c :=
  (s02_keep_arg2 (W2 m ρ c)).trans ((s01_keep_arg2 (W1 m ρ c)).trans (s0_keep_arg2 (W0 m ρ c)))
theorem W3_arg3 : W3 m ρ c (Proc.devRef .tc main_arg3) = a3 m c :=
  (s02_keep_arg3 (W2 m ρ c)).trans ((s01_keep_arg3 (W1 m ρ c)).trans (s0_keep_arg3 (W0 m ρ c)))
theorem W3_arg4 : W3 m ρ c (Proc.devRef .tc main_arg4) = a4 m c :=
  (s02_keep_arg4 (W2 m ρ c)).trans ((s01_keep_arg4 (W1 m ρ c)).trans (s0_keep_arg4 (W0 m ρ c)))
theorem W3_arg5 : W3 m ρ c (Proc.devRef .tc main_arg5) = a5 m c :=
  (s02_keep_arg5 (W2 m ρ c)).trans ((s01_keep_arg5 (W1 m ρ c)).trans (s0_keep_arg5 (W0 m ρ c)))

/-! After the first region: its output is the first product; everything else is as the region found it. -/
theorem W4_v33 : W4 m ρ c (Proc.devRef .tc main_v33) = matProd (a0 m c) (a2 m c) := by
  refine (W4_arr m ρ c 2).trans ?_
  rw [region0 (V3 m ρ) c]
  show matProd (W3 m ρ c (Proc.devRef .tc main_arg0)) (W3 m ρ c (Proc.devRef .tc main_arg2)) = _
  rw [W3_arg0, W3_arg2]
theorem W4_v3 : W4 m ρ c (Proc.devRef .tc main_v3) = srcIx (a1 m c) := (W4_of_ne m ρ c main_v3 (by decide)).trans (W3_v3 m ρ c)
theorem W4_v6 : W4 m ρ c (Proc.devRef .tc main_v6) = dstIx (a1 m c) := (W4_of_ne m ρ c main_v6 (by decide)).trans (W3_v6 m ρ c)
theorem W4_v32 : W4 m ρ c (Proc.devRef .tc main_v32) = edgeWeight (a1 m c) := (W4_of_ne m ρ c main_v32 (by decide)).trans (W3_v32 m ρ c)
theorem W4_arg3 : W4 m ρ c (Proc.devRef .tc main_arg3) = a3 m c := (W4_of_ne m ρ c main_arg3 (by decide)).trans (W3_arg3 m ρ c)
theorem W4_arg4 : W4 m ρ c (Proc.devRef .tc main_arg4) = a4 m c := (W4_of_ne m ρ c main_arg4 (by decide)).trans (W3_arg4 m ρ c)
theorem W4_arg5 : W4 m ρ c (Proc.devRef .tc main_arg5) = a5 m c := (W4_of_ne m ρ c main_arg5 (by decide)).trans (W3_arg5 m ρ c)

/-! After the fourth stretch: the entry of the second region. -/
theorem W5_v45 : W5 m ρ c (Proc.devRef .tc main_v45) = mix64 (matProd (a0 m c) (a2 m c)) (a1 m c) := by
  refine (s1_v45 (W4 m ρ c)).trans ?_
  rw [W4_v33, W4_v3, W4_v6, W4_v32]; rfl
theorem W5_v46 : W5 m ρ c (Proc.devRef .tc main_v46) = shapeCast S1x64 (a3 m c) shapeCasts_S64_S1x64 := by
  refine (s1_v46 (W4 m ρ c)).trans ?_
  rw [W4_arg3]
theorem W5_v3 : W5 m ρ c (Proc.devRef .tc main_v3) = srcIx (a1 m c) := (s1_keep_v3 (W4 m ρ c)).trans (W4_v3 m ρ c)
theorem W5_v6 : W5 m ρ c (Proc.devRef .tc main_v6) = dstIx (a1 m c) := (s1_keep_v6 (W4 m ρ c)).trans (W4_v6 m ρ c)
theorem W5_v32 : W5 m ρ c (Proc.devRef .tc main_v32) = edgeWeight (a1 m c) := (s1_keep_v32 (W4 m ρ c)).trans (W4_v32 m ρ c)
theorem W5_arg4 : W5 m ρ c (Proc.devRef .tc main_arg4) = a4 m c := (s1_keep_arg4 (W4 m ρ c)).trans (W4_arg4 m ρ c)
theorem W5_arg5 : W5 m ρ c (Proc.devRef .tc main_arg5) = a5 m c := (s1_keep_arg5 (W4 m ρ c)).trans (W4_arg5 m ρ c)

/-- A vector recast as a one-row array is that vector laid out as the row. -/
theorem row_of_vec64 (b : (⟨S64, .f32⟩ : BufTy).Contents (Elt Ideal)) : shapeCast S1x64 b shapeCasts_S64_S1x64 = asRow b :=
  funext fun i => by
    rw [eq_row_col i]
    exact shapeCast_a_1a_apply b shapeCasts_S64_S1x64 (row i) (col i)
theorem row_of_vec40 (b : (⟨S40, .f32⟩ : BufTy).Contents (Elt Ideal)) : shapeCast S1x40 b shapeCasts_S40_S1x40 = asRow b :=
  funext fun i => by
    rw [eq_row_col i]
    exact shapeCast_a_1a_apply b shapeCasts_S40_S1x40 (row i) (col i)

/-- The hidden features: the first mixing with the bias row added, clipped below at zero. -/
abbrev hidden : Mat 100000 64 :=
  clipBelow zeroWord (addRow (mix64 (matProd (a0 m c) (a2 m c)) (a1 m c)) (asRow (a3 m c)))

/-! After the second region: its output is the hidden features. -/
theorem W6_v47 : W6 m ρ c (Proc.devRef .tc main_v47) = hidden m c := by
  refine (W6_arr m ρ c 2).trans ?_
  rw [region1 (V5 m ρ) c]
  show clipBelow zeroWord (addRow (W5 m ρ c (Proc.devRef .tc main_v45)) (W5 m ρ c (Proc.devRef .tc main_v46))) = _
  rw [W5_v45, W5_v46, row_of_vec64]
theorem W6_v3 : W6 m ρ c (Proc.devRef .tc main_v3) = srcIx (a1 m c) := (W6_of_ne m ρ c main_v3 (by decide)).trans (W5_v3 m ρ c)
theorem W6_v6 : W6 m ρ c (Proc.devRef .tc main_v6) = dstIx (a1 m c) := (W6_of_ne m ρ c main_v6 (by decide)).trans (W5_v6 m ρ c)
theorem W6_v32 : W6 m ρ c (Proc.devRef .tc main_v32) = edgeWeight (a1 m c) := (W6_of_ne m ρ c main_v32 (by decide)).trans (W5_v32 m ρ c)
theorem W6_arg4 : W6 m ρ c (Proc.devRef .tc main_arg4) = a4 m c := (W6_of_ne m ρ c main_arg4 (by decide)).trans (W5_arg4 m ρ c)
theorem W6_arg5 : W6 m ρ c (Proc.devRef .tc main_arg5) = a5 m c := (W6_of_ne m ρ c main_arg5 (by decide)).trans (W5_arg5 m ρ c)

/-! After the third region: its output is the second product. -/
theorem W7_v48 : W7 m ρ c (Proc.devRef .tc main_v48) = matProd (hidden m c) (a4 m c) := by
  refine (W7_arr m ρ c 2).trans ?_
  rw [region2 (V6 m ρ) c]
  show matProd (W6 m ρ c (Proc.devRef .tc main_v47)) (W6 m ρ c (Proc.devRef .tc main_arg4)) = _
  rw [W6_v47, W6_arg4]
theorem W7_v3 : W7 m ρ c (Proc.devRef .tc main_v3) = srcIx (a1 m c) := (W7_of_ne m ρ c main_v3 (by decide)).trans (W6_v3 m ρ c)
theorem W7_v6 : W7 m ρ c (Proc.devRef .tc main_v6) = dstIx (a1 m c) := (W7_of_ne m ρ c main_v6 (by decide)).trans (W6_v6 m ρ c)
theorem W7_v32 : W7 m ρ c (Proc.devRef .tc main_v32) = edgeWeight (a1 m c) := (W7_of_ne m ρ c main_v32 (by decide)).trans (W6_v32 m ρ c)
theorem W7_arg5 : W7 m ρ c (Proc.devRef .tc main_arg5) = a5 m c := (W7_of_ne m ρ c main_arg5 (by decide)).trans (W6_arg5 m ρ c)

/-! After the fifth stretch: the entry of the last region. -/
theorem W8_v60 : W8 m ρ c (Proc.devRef .tc main_v60) = mix40 (matProd (hidden m c) (a4 m c)) (a1 m c) := by
  refine (s3_v60 (W7 m ρ c)).trans ?_
  rw [W7_v48, W7_v3, W7_v6, W7_v32]; rfl
theorem W8_v61 : W8 m ρ c (Proc.devRef .tc main_v61) = shapeCast S1x40 (a5 m c) shapeCasts_S40_S1x40 := by
  refine (s3_v61 (W7 m ρ c)).trans ?_
  rw [W7_arg5]

/-- After the last region the result's buffer holds that function of the arguments as launched. -/
theorem W9_v62 : W9 m ρ c (Proc.devRef .tc main_v62) = kernelOut (a0 m c) (a1 m c) (a2 m c) (a3 m c) (a4 m c) (a5 m c) := by
  refine (W9_arr m ρ c 2).trans ?_
  rw [region3 (V8 m ρ) c]
  show logSoftmaxRows negInfWord (addRow (W8 m ρ c (Proc.devRef .tc main_v60)) (W8 m ρ c (Proc.devRef .tc main_v61))) = _
  rw [W8_v60, W8_v61, row_of_vec40]
  rfl

end Boundaries

end Cert.KernelIdeal.Val

end
-- ==== Proof.RefWalk.lean ====
/-
  The reference program's result, evaluated chunk by chunk.

  The reference is one straight line of 137 array operations. Cut into eighteen consecutive chunks, each chunk is evaluated
  on its own from buffer contents of which only this is known: the few buffers still needed hold the stages named so
  far (the edges' two ends, the current feature array, the bias vectors). Each chunk then yields the next named stage,
  and leaves the other live buffers alone. Chained from the launch contents, the last chunk's result is the reference's
  last stage as a function of the six arguments.
-/
import proofs.«150700_j78589311582297_1_alg».proof.Proof.RefOps
import proofs.«150700_j78589311582297_1_alg».proof.Proof.RefRead
import Idealize.ShloMosaic.Lib.StableHlo.Run
import Idealize.ShloMosaic.Lib.Pipeline.Frame

set_option maxRecDepth 16384

noncomputable section

namespace Cert.ReferenceIdeal.RefWalk

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP

variable {F : FTy → Type} [FloatOps F]

/-- The typed-reference transports around a maximum of two arrays of one entry per node are the identity. -/
theorem cast_max_v2 (y1 y0 : (⟨S100000, .f32⟩ : BufTy).Contents (Elt F)) :
    (TRef.of (T := (⟨S100000, .f32⟩ : BufTy)) main_call3_v2 : TRef sig (⟨S100000, .f32⟩ : BufTy)).toBuf (Val := Elt F)
      (maximumf ((TRef.of (T := (⟨S100000, .f32⟩ : BufTy)) main_call3_v1 : TRef sig (⟨S100000, .f32⟩ : BufTy)).ofBuf (Val := Elt F) y1)
        ((TRef.of (T := (⟨S100000, .f32⟩ : BufTy)) main_call3_v0 : TRef sig (⟨S100000, .f32⟩ : BufTy)).ofBuf (Val := Elt F) y0)) = maximumf y1 y0 := rfl

/-! ## Each chunk, from any buffer contents `W` whose live buffers hold the stages named so far -/

section Chunks
variable (W : Valuation τ sig (Elt F))
variable (x0 : (⟨S100000x128, .f32⟩ : BufTy).Contents (Elt F)) (x1 : (⟨S2x800000, .i32⟩ : BufTy).Contents (Elt F))
  (x2 : (⟨S128x64, .f32⟩ : BufTy).Contents (Elt F)) (x3 : (⟨S64, .f32⟩ : BufTy).Contents (Elt F))
  (x4 : (⟨S64x40, .f32⟩ : BufTy).Contents (Elt F)) (x5 : (⟨S40, .f32⟩ : BufTy).Contents (Elt F))

/-! The first chunk builds the two ends of every edge and the first product. -/
theorem c1_v3 : StableHlo.after ops1 W (Proc.devRef .tc main_v3) = val_main_v3 (F := F) (W (Proc.devRef .tc main_arg1)) := by
  after_results <;> rfl
theorem c1_v6 : StableHlo.after ops1 W (Proc.devRef .tc main_v6) = val_main_v6 (F := F) (W (Proc.devRef .tc main_arg1)) := by
  after_results <;> rfl
theorem c1_v7 : StableHlo.after ops1 W (Proc.devRef .tc main_v7) = val_main_v7 (F := F) (W (Proc.devRef .tc main_arg0)) (W (Proc.devRef .tc main_arg2)) := by
  after_results <;> rfl
theorem c1_keep_arg3 : StableHlo.after ops1 W (Proc.devRef .tc main_arg3) = W (Proc.devRef .tc main_arg3) := by
  after_results_simp <;> rfl
theorem c1_keep_arg4 : StableHlo.after ops1 W (Proc.devRef .tc main_arg4) = W (Proc.devRef .tc main_arg4) := by
  after_results_simp <;> rfl
theorem c1_keep_arg5 : StableHlo.after ops1 W (Proc.devRef .tc main_arg5) = W (Proc.devRef .tc main_arg5) := by
  after_results_simp <;> rfl

/-! The second chunk: the inverse square roots of the degrees, zero where the degree is zero. -/
set_option maxHeartbeats 4000000 in
theorem c2_v17 (h_v6 : W (Proc.devRef .tc main_v6) = val_main_v6 (F := F) x1) :
    StableHlo.after ops2 W (Proc.devRef .tc main_v17) = val_main_v17 (F := F) x1 := by
  after_results_simp
  simp only [h_v6]
  (try simp only [TRef.ofBuf, TRef.toBuf, cast_eq])
  rfl
theorem c2_keep_v3 : StableHlo.after ops2 W (Proc.devRef .tc main_v3) = W (Proc.devRef .tc main_v3) := by
  after_results_simp <;> rfl
theorem c2_keep_v6 : StableHlo.after ops2 W (Proc.devRef .tc main_v6) = W (Proc.devRef .tc main_v6) := by
  after_results_simp <;> rfl
theorem c2_keep_v7 : StableHlo.after ops2 W (Proc.devRef .tc main_v7) = W (Proc.devRef .tc main_v7) := by
  after_results_simp <;> rfl
theorem c2_keep_arg3 : StableHlo.after ops2 W (Proc.devRef .tc main_arg3) = W (Proc.devRef .tc main_arg3) := by
  after_results_simp <;> rfl
theorem c2_keep_arg4 : StableHlo.after ops2 W (Proc.devRef .tc main_arg4) = W (Proc.devRef .tc main_arg4) := by
  after_results_simp <;> rfl
theorem c2_keep_arg5 : StableHlo.after ops2 W (Proc.devRef .tc main_arg5) = W (Proc.devRef .tc main_arg5) := by
  after_results_simp <;> rfl

/-! The third chunk: every edge's weight. -/
set_option maxHeartbeats 4000000 in
theorem c3_v32 (h_v3 : W (Proc.devRef .tc main_v3) = val_main_v3 (F := F) x1) (h_v6 : W (Proc.devRef .tc main_v6) = val_main_v6 (F := F) x1) (h_v17 : W (Proc.devRef .tc main_v17) = val_main_v17 (F := F) x1) :
    StableHlo.after ops3 W (Proc.devRef .tc main_v32) = val_main_v32 (F := F) x1 := by
  after_results_simp
  simp only [h_v3, h_v6, h_v17]
  (try simp only [TRef.ofBuf, TRef.toBuf, cast_eq])
  rfl
theorem c3_keep_v3 : StableHlo.after ops3 W (Proc.devRef .tc main_v3) = W (Proc.devRef .tc main_v3) := by
  after_results_simp <;> rfl
theorem c3_keep_v6 : StableHlo.after ops3 W (Proc.devRef .tc main_v6) = W (Proc.devRef .tc main_v6) := by
  after_results_simp <;> rfl
theorem c3_keep_v7 : StableHlo.after ops3 W (Proc.devRef .tc main_v7) = W (Proc.devRef .tc main_v7) := by
  after_results_simp <;> rfl
theorem c3_keep_arg3 : StableHlo.after ops3 W (Proc.devRef .tc main_arg3) = W (Proc.devRef .tc main_arg3) := by
  after_results_simp <;> rfl
theorem c3_keep_arg4 : StableHlo.after ops3 W (Proc.devRef .tc main_arg4) = W (Proc.devRef .tc main_arg4) := by
  after_results_simp <;> rfl
theorem c3_keep_arg5 : StableHlo.after ops3 W (Proc.devRef .tc main_arg5) = W (Proc.devRef .tc main_arg5) := by
  after_results_simp <;> rfl

/-! The fourth chunk: the first layer's mixing. -/
set_option maxHeartbeats 4000000 in
theorem c4_v45 (h_v3 : W (Proc.devRef .tc main_v3) = val_main_v3 (F := F) x1) (h_v6 : W (Proc.devRef .tc main_v6) = val_main_v6 (F := F) x1) (h_v7 : W (Proc.devRef .tc main_v7) = val_main_v7 (F := F) x0 x2) (h_v32 : W (Proc.devRef .tc main_v32) = val_main_v32 (F := F) x1) :
    StableHlo.after ops4 W (Proc.devRef .tc main_v45) = val_main_v45 (F := F) x0 x1 x2 := by
  after_results_simp
  simp only [h_v3, h_v6, h_v7, h_v32]
  (try simp only [TRef.ofBuf, TRef.toBuf, cast_eq])
  rfl
theorem c4_keep_v3 : StableHlo.after ops4 W (Proc.devRef .tc main_v3) = W (Proc.devRef .tc main_v3) := by
  after_results_simp <;> rfl
theorem c4_keep_v6 : StableHlo.after ops4 W (Proc.devRef .tc main_v6) = W (Proc.devRef .tc main_v6) := by
  after_results_simp <;> rfl
theorem c4_keep_arg3 : StableHlo.after ops4 W (Proc.devRef .tc main_arg3) = W (Proc.devRef .tc main_arg3) := by
  after_results_simp <;> rfl
theorem c4_keep_arg4 : StableHlo.after ops4 W (Proc.devRef .tc main_arg4) = W (Proc.devRef .tc main_arg4) := by
  after_results_simp <;> rfl
theorem c4_keep_arg5 : StableHlo.after ops4 W (Proc.devRef .tc main_arg5) = W (Proc.devRef .tc main_arg5) := by
  after_results_simp <;> rfl

/-! The fifth chunk: the first bias, the clipping, the second product. -/
set_option maxHeartbeats 4000000 in
theorem c5_v50 (h_v45 : W (Proc.devRef .tc main_v45) = val_main_v45 (F := F) x0 x1 x2) (h_arg3 : W (Proc.devRef .tc main_arg3) = x3) (h_arg4 : W (Proc.devRef .tc main_arg4) = x4) :
    StableHlo.after ops5 W (Proc.devRef .tc main_v50) = val_main_v50 (F := F) x0 x1 x2 x3 x4 := by
  after_results_simp
  simp only [h_v45, h_arg3, h_arg4]
  (try simp only [TRef.ofBuf, TRef.toBuf, cast_eq])
  rfl
theorem c5_keep_v3 : StableHlo.after ops5 W (Proc.devRef .tc main_v3) = W (Proc.devRef .tc main_v3) := by
  after_results_simp <;> rfl
theorem c5_keep_v6 : StableHlo.after ops5 W (Proc.devRef .tc main_v6) = W (Proc.devRef .tc main_v6) := by
  after_results_simp <;> rfl
theorem c5_keep_arg5 : StableHlo.after ops5 W (Proc.devRef .tc main_arg5) = W (Proc.devRef .tc main_arg5) := by
  after_results_simp <;> rfl

/-! The sixth chunk: the inverse square roots of the degrees once more. -/
set_option maxHeartbeats 4000000 in
theorem c6_v60 (h_v6 : W (Proc.devRef .tc main_v6) = val_main_v6 (F := F) x1) :
    StableHlo.after ops6 W (Proc.devRef .tc main_v60) = val_main_v60 (F := F) x1 := by
  after_results_simp
  simp only [h_v6]
  (try simp only [TRef.ofBuf, TRef.toBuf, cast_eq])
  rfl
theorem c6_keep_v3 : StableHlo.after ops6 W (Proc.devRef .tc main_v3) = W (Proc.devRef .tc main_v3) := by
  after_results_simp <;> rfl
theorem c6_keep_v6 : StableHlo.after ops6 W (Proc.devRef .tc main_v6) = W (Proc.devRef .tc main_v6) := by
  after_results_simp <;> rfl
theorem c6_keep_v50 : StableHlo.after ops6 W (Proc.devRef .tc main_v50) = W (Proc.devRef .tc main_v50) := by
  after_results_simp <;> rfl
theorem c6_keep_arg5 : StableHlo.after ops6 W (Proc.devRef .tc main_arg5) = W (Proc.devRef .tc main_arg5) := by
  after_results_simp <;> rfl

/-! The seventh chunk: every edge's weight once more. -/
set_option maxHeartbeats 4000000 in
theorem c7_v75 (h_v3 : W (Proc.devRef .tc main_v3) = val_main_v3 (F := F) x1) (h_v6 : W (Proc.devRef .tc main_v6) = val_main_v6 (F := F) x1) (h_v60 : W (Proc.devRef .tc main_v60) = val_main_v60 (F := F) x1) :
    StableHlo.after ops7 W (Proc.devRef .tc main_v75) = val_main_v75 (F := F) x1 := by
  after_results_simp
  simp only [h_v3, h_v6, h_v60]
  (try simp only [TRef.ofBuf, TRef.toBuf, cast_eq])
  rfl
theorem c7_keep_v3 : StableHlo.after ops7 W (Proc.devRef .tc main_v3) = W (Proc.devRef .tc main_v3) := by
  after_results_simp <;> rfl
theorem c7_keep_v6 : StableHlo.after ops7 W (Proc.devRef .tc main_v6) = W (Proc.devRef .tc main_v6) := by
  after_results_simp <;> rfl
theorem c7_keep_v50 : StableHlo.after ops7 W (Proc.devRef .tc main_v50) = W (Proc.devRef .tc main_v50) := by
  after_results_simp <;> rfl
theorem c7_keep_arg5 : StableHlo.after ops7 W (Proc.devRef .tc main_arg5) = W (Proc.devRef .tc main_arg5) := by
  after_results_simp <;> rfl

/-! The eighth chunk: the second layer's mixing. -/
set_option maxHeartbeats 4000000 in
theorem c8_v88 (h_v3 : W (Proc.devRef .tc main_v3) = val_main_v3 (F := F) x1) (h_v6 : W (Proc.devRef .tc main_v6) = val_main_v6 (F := F) x1) (h_v50 : W (Proc.devRef .tc main_v50) = val_main_v50 (F := F) x0 x1 x2 x3 x4) (h_v75 : W (Proc.devRef .tc main_v75) = val_main_v75 (F := F) x1) :
    StableHlo.after ops8 W (Proc.devRef .tc main_v88) = val_main_v88 (F := F) x0 x1 x2 x3 x4 := by
  after_results_simp
  simp only [h_v3, h_v6, h_v50, h_v75]
  (try simp only [TRef.ofBuf, TRef.toBuf, cast_eq])
  rfl
theorem c8_keep_arg5 : StableHlo.after ops8 W (Proc.devRef .tc main_arg5) = W (Proc.devRef .tc main_arg5) := by
  after_results_simp <;> rfl

/-! The ninth chunk: the second bias added to every row. -/
set_option maxHeartbeats 4000000 in
theorem c9_v91 (h_v88 : W (Proc.devRef .tc main_v88) = val_main_v88 (F := F) x0 x1 x2 x3 x4) (h_arg5 : W (Proc.devRef .tc main_arg5) = x5) :
    StableHlo.after ops9 W (Proc.devRef .tc main_v91) = val_main_v91 (F := F) x0 x1 x2 x3 x4 x5 := by
  after_results_simp
  simp only [h_v88, h_arg5]
  (try simp only [TRef.ofBuf, TRef.toBuf, cast_eq])
  rfl

/-! Chunks ten to sixteen, one operation each: each row's maximum folded from minus infinity, the maximum with minus
    infinity once more, and the result spread back over the rows. The fold over a row is never opened. -/
attribute [local irreducible] Host.reduce

set_option maxHeartbeats 400000 in
theorem c10_call3_cst  :
    StableHlo.after ops10 W (Proc.devRef .tc main_call3_cst) = val_main_call3_cst (F := F) := by
  simp only [after_cons, after_nil]
  rw [nullary_result]
  unfold val_main_call3_cst
  rfl
theorem c10_keep_v91 : StableHlo.after ops10 W (Proc.devRef .tc main_v91) = W (Proc.devRef .tc main_v91) := by
  after_results_simp <;> rfl
set_option maxHeartbeats 400000 in
theorem c11_call3_v0 (h_v91 : W (Proc.devRef .tc main_v91) = val_main_v91 (F := F) x0 x1 x2 x3 x4 x5) (h_call3_cst : W (Proc.devRef .tc main_call3_cst) = val_main_call3_cst (F := F)) :
    StableHlo.after ops11 W (Proc.devRef .tc main_call3_v0) = val_main_call3_v0 (F := F) x0 x1 x2 x3 x4 x5 := by
  simp only [after_cons, after_nil]
  rw [binary_result]
  rw [h_v91, h_call3_cst]
  unfold val_main_call3_v0
  rfl
theorem c11_keep_v91 : StableHlo.after ops11 W (Proc.devRef .tc main_v91) = W (Proc.devRef .tc main_v91) := by
  after_results_simp <;> rfl
set_option maxHeartbeats 400000 in
theorem c12_call3_cst_0  :
    StableHlo.after ops12 W (Proc.devRef .tc main_call3_cst_0) = val_main_call3_cst_0 (F := F) := by
  simp only [after_cons, after_nil]
  rw [nullary_result]
  unfold val_main_call3_cst_0
  rfl
theorem c12_keep_v91 : StableHlo.after ops12 W (Proc.devRef .tc main_v91) = W (Proc.devRef .tc main_v91) := by
  after_results_simp <;> rfl
theorem c12_keep_call3_v0 : StableHlo.after ops12 W (Proc.devRef .tc main_call3_v0) = W (Proc.devRef .tc main_call3_v0) := by
  after_results_simp <;> rfl
set_option maxHeartbeats 400000 in
theorem c13_call3_v1 (h_call3_cst_0 : W (Proc.devRef .tc main_call3_cst_0) = val_main_call3_cst_0 (F := F)) :
    StableHlo.after ops13 W (Proc.devRef .tc main_call3_v1) = val_main_call3_v1 (F := F) := by
  simp only [after_cons, after_nil]
  rw [unary_result]
  rw [h_call3_cst_0]
  unfold val_main_call3_v1
  rfl
theorem c13_keep_v91 : StableHlo.after ops13 W (Proc.devRef .tc main_v91) = W (Proc.devRef .tc main_v91) := by
  after_results_simp <;> rfl
theorem c13_keep_call3_v0 : StableHlo.after ops13 W (Proc.devRef .tc main_call3_v0) = W (Proc.devRef .tc main_call3_v0) := by
  after_results_simp <;> rfl
set_option maxHeartbeats 400000 in
theorem c14_call3_v2 (h_call3_v1 : W (Proc.devRef .tc main_call3_v1) = val_main_call3_v1 (F := F)) (h_call3_v0 : W (Proc.devRef .tc main_call3_v0) = val_main_call3_v0 (F := F) x0 x1 x2 x3 x4 x5) :
    StableHlo.after ops14 W (Proc.devRef .tc main_call3_v2) = val_main_call3_v2 (F := F) x0 x1 x2 x3 x4 x5 := by
  simp only [after_cons, after_nil]
  rw [binary_result]
  rw [h_call3_v1, h_call3_v0]
  unfold val_main_call3_v2
  exact cast_max_v2 _ _
theorem c14_keep_v91 : StableHlo.after ops14 W (Proc.devRef .tc main_v91) = W (Proc.devRef .tc main_v91) := by
  after_results_simp <;> rfl
set_option maxHeartbeats 400000 in
theorem c15_call3_v3 (h_call3_v2 : W (Proc.devRef .tc main_call3_v2) = val_main_call3_v2 (F := F) x0 x1 x2 x3 x4 x5) :
    StableHlo.after ops15 W (Proc.devRef .tc main_call3_v3) = val_main_call3_v3 (F := F) x0 x1 x2 x3 x4 x5 := by
  simp only [after_cons, after_nil]
  rw [unary_result]
  rw [h_call3_v2]
  unfold val_main_call3_v3
  rfl
theorem c15_keep_v91 : StableHlo.after ops15 W (Proc.devRef .tc main_v91) = W (Proc.devRef .tc main_v91) := by
  after_results_simp <;> rfl
set_option maxHeartbeats 400000 in
theorem c16_call3_v4 (h_call3_v3 : W (Proc.devRef .tc main_call3_v3) = val_main_call3_v3 (F := F) x0 x1 x2 x3 x4 x5) :
    StableHlo.after ops16 W (Proc.devRef .tc main_call3_v4) = val_main_call3_v4 (F := F) x0 x1 x2 x3 x4 x5 := by
  simp only [after_cons, after_nil]
  rw [unary_result]
  rw [h_call3_v3]
  unfold val_main_call3_v4
  rfl
theorem c16_keep_v91 : StableHlo.after ops16 W (Proc.devRef .tc main_v91) = W (Proc.devRef .tc main_v91) := by
  after_results_simp <;> rfl

/-! The seventeenth chunk: the maximum subtracted, and the exponentials. -/
set_option maxHeartbeats 4000000 in
theorem c17_call3_v5 (h_v91 : W (Proc.devRef .tc main_v91) = val_main_v91 (F := F) x0 x1 x2 x3 x4 x5) (h_call3_v4 : W (Proc.devRef .tc main_call3_v4) = val_main_call3_v4 (F := F) x0 x1 x2 x3 x4 x5) :
    StableHlo.after ops17 W (Proc.devRef .tc main_call3_v5) = val_main_call3_v5 (F := F) x0 x1 x2 x3 x4 x5 := by
  after_results_simp
  simp only [h_v91, h_call3_v4]
  (try simp only [TRef.ofBuf, TRef.toBuf, cast_eq])
  rfl
set_option maxHeartbeats 4000000 in
theorem c17_call3_v6 (h_v91 : W (Proc.devRef .tc main_v91) = val_main_v91 (F := F) x0 x1 x2 x3 x4 x5) (h_call3_v4 : W (Proc.devRef .tc main_call3_v4) = val_main_call3_v4 (F := F) x0 x1 x2 x3 x4 x5) :
    StableHlo.after ops17 W (Proc.devRef .tc main_call3_v6) = val_main_call3_v6 (F := F) x0 x1 x2 x3 x4 x5 := by
  after_results_simp
  simp only [h_v91, h_call3_v4]
  (try simp only [TRef.ofBuf, TRef.toBuf, cast_eq])
  rfl

/-! The eighteenth chunk: each row's sum of exponentials, its logarithm, and the difference. -/
set_option maxHeartbeats 4000000 in
theorem c18_v92 (h_call3_v5 : W (Proc.devRef .tc main_call3_v5) = val_main_call3_v5 (F := F) x0 x1 x2 x3 x4 x5) (h_call3_v6 : W (Proc.devRef .tc main_call3_v6) = val_main_call3_v6 (F := F) x0 x1 x2 x3 x4 x5) :
    StableHlo.after ops18 W (Proc.devRef .tc main_v92) = val_main_v92 (F := F) x0 x1 x2 x3 x4 x5 := by
  after_results_simp
  simp only [h_call3_v5, h_call3_v6]
  (try simp only [TRef.ofBuf, TRef.toBuf, cast_eq])
  rfl

end Chunks

/-! ## The boundaries, chained from the launch contents `L` -/

section Boundaries
/-- The buffers after the first k chunks, from the contents `L`. -/
abbrev B1 (L : Valuation τ sig (Elt F)) : Valuation τ sig (Elt F) := StableHlo.after ops1 L
abbrev B2 (L : Valuation τ sig (Elt F)) : Valuation τ sig (Elt F) := StableHlo.after ops2 (B1 L)
abbrev B3 (L : Valuation τ sig (Elt F)) : Valuation τ sig (Elt F) := StableHlo.after ops3 (B2 L)
abbrev B4 (L : Valuation τ sig (Elt F)) : Valuation τ sig (Elt F) := StableHlo.after ops4 (B3 L)
abbrev B5 (L : Valuation τ sig (Elt F)) : Valuation τ sig (Elt F) := StableHlo.after ops5 (B4 L)
abbrev B6 (L : Valuation τ sig (Elt F)) : Valuation τ sig (Elt F) := StableHlo.after ops6 (B5 L)
abbrev B7 (L : Valuation τ sig (Elt F)) : Valuation τ sig (Elt F) := StableHlo.after ops7 (B6 L)
abbrev B8 (L : Valuation τ sig (Elt F)) : Valuation τ sig (Elt F) := StableHlo.after ops8 (B7 L)
abbrev B9 (L : Valuation τ sig (Elt F)) : Valuation τ sig (Elt F) := StableHlo.after ops9 (B8 L)
abbrev B10 (L : Valuation τ sig (Elt F)) : Valuation τ sig (Elt F) := StableHlo.after ops10 (B9 L)
abbrev B11 (L : Valuation τ sig (Elt F)) : Valuation τ sig (Elt F) := StableHlo.after ops11 (B10 L)
abbrev B12 (L : Valuation τ sig (Elt F)) : Valuation τ sig (Elt F) := StableHlo.after ops12 (B11 L)
abbrev B13 (L : Valuation τ sig (Elt F)) : Valuation τ sig (Elt F) := StableHlo.after ops13 (B12 L)
abbrev B14 (L : Valuation τ sig (Elt F)) : Valuation τ sig (Elt F) := StableHlo.after ops14 (B13 L)
abbrev B15 (L : Valuation τ sig (Elt F)) : Valuation τ sig (Elt F) := StableHlo.after ops15 (B14 L)
abbrev B16 (L : Valuation τ sig (Elt F)) : Valuation τ sig (Elt F) := StableHlo.after ops16 (B15 L)
abbrev B17 (L : Valuation τ sig (Elt F)) : Valuation τ sig (Elt F) := StableHlo.after ops17 (B16 L)
abbrev B18 (L : Valuation τ sig (Elt F)) : Valuation τ sig (Elt F) := StableHlo.after ops18 (B17 L)

variable (L : Valuation τ sig (Elt F))

/-! After chunk 1. -/
theorem B1_v3 : B1 L (Proc.devRef .tc main_v3) = val_main_v3 (F := F) (L (Proc.devRef .tc main_arg1)) := c1_v3 L
theorem B1_v6 : B1 L (Proc.devRef .tc main_v6) = val_main_v6 (F := F) (L (Proc.devRef .tc main_arg1)) := c1_v6 L
theorem B1_v7 : B1 L (Proc.devRef .tc main_v7) = val_main_v7 (F := F) (L (Proc.devRef .tc main_arg0)) (L (Proc.devRef .tc main_arg2)) := c1_v7 L
theorem B1_arg3 : B1 L (Proc.devRef .tc main_arg3) = (L (Proc.devRef .tc main_arg3)) :=
  (c1_keep_arg3 L).trans rfl
theorem B1_arg4 : B1 L (Proc.devRef .tc main_arg4) = (L (Proc.devRef .tc main_arg4)) :=
  (c1_keep_arg4 L).trans rfl
theorem B1_arg5 : B1 L (Proc.devRef .tc main_arg5) = (L (Proc.devRef .tc main_arg5)) :=
  (c1_keep_arg5 L).trans rfl

/-! After chunk 2. -/
theorem B2_v17 : B2 L (Proc.devRef .tc main_v17) = val_main_v17 (F := F) (L (Proc.devRef .tc main_arg1)) :=
  c2_v17 (B1 L) _ (B1_v6 L)
theorem B2_v3 : B2 L (Proc.devRef .tc main_v3) = val_main_v3 (F := F) (L (Proc.devRef .tc main_arg1)) :=
  (c2_keep_v3 (B1 L)).trans (B1_v3 L)
theorem B2_v6 : B2 L (Proc.devRef .tc main_v6) = val_main_v6 (F := F) (L (Proc.devRef .tc main_arg1)) :=
  (c2_keep_v6 (B1 L)).trans (B1_v6 L)
theorem B2_v7 : B2 L (Proc.devRef .tc main_v7) = val_main_v7 (F := F) (L (Proc.devRef .tc main_arg0)) (L (Proc.devRef .tc main_arg2)) :=
  (c2_keep_v7 (B1 L)).trans (B1_v7 L)
theorem B2_arg3 : B2 L (Proc.devRef .tc main_arg3) = (L (Proc.devRef .tc main_arg3)) :=
  (c2_keep_arg3 (B1 L)).trans (B1_arg3 L)
theorem B2_arg4 : B2 L (Proc.devRef .tc main_arg4) = (L (Proc.devRef .tc main_arg4)) :=
  (c2_keep_arg4 (B1 L)).trans (B1_arg4 L)
theorem B2_arg5 : B2 L (Proc.devRef .tc main_arg5) = (L (Proc.devRef .tc main_arg5)) :=
  (c2_keep_arg5 (B1 L)).trans (B1_arg5 L)

/-! After chunk 3. -/
theorem B3_v32 : B3 L (Proc.devRef .tc main_v32) = val_main_v32 (F := F) (L (Proc.devRef .tc main_arg1)) :=
  c3_v32 (B2 L) _ (B2_v3 L) (B2_v6 L) (B2_v17 L)
theorem B3_v3 : B3 L (Proc.devRef .tc main_v3) = val_main_v3 (F := F) (L (Proc.devRef .tc main_arg1)) :=
  (c3_keep_v3 (B2 L)).trans (B2_v3 L)
theorem B3_v6 : B3 L (Proc.devRef .tc main_v6) = val_main_v6 (F := F) (L (Proc.devRef .tc main_arg1)) :=
  (c3_keep_v6 (B2 L)).trans (B2_v6 L)
theorem B3_v7 : B3 L (Proc.devRef .tc main_v7) = val_main_v7 (F := F) (L (Proc.devRef .tc main_arg0)) (L (Proc.devRef .tc main_arg2)) :=
  (c3_keep_v7 (B2 L)).trans (B2_v7 L)
theorem B3_arg3 : B3 L (Proc.devRef .tc main_arg3) = (L (Proc.devRef .tc main_arg3)) :=
  (c3_keep_arg3 (B2 L)).trans (B2_arg3 L)
theorem B3_arg4 : B3 L (Proc.devRef .tc main_arg4) = (L (Proc.devRef .tc main_arg4)) :=
  (c3_keep_arg4 (B2 L)).trans (B2_arg4 L)
theorem B3_arg5 : B3 L (Proc.devRef .tc main_arg5) = (L (Proc.devRef .tc main_arg5)) :=
  (c3_keep_arg5 (B2 L)).trans (B2_arg5 L)

/-! After chunk 4. -/
theorem B4_v45 : B4 L (Proc.devRef .tc main_v45) = val_main_v45 (F := F) (L (Proc.devRef .tc main_arg0)) (L (Proc.devRef .tc main_arg1)) (L (Proc.devRef .tc main_arg2)) :=
  c4_v45 (B3 L) _ _ _ (B3_v3 L) (B3_v6 L) (B3_v7 L) (B3_v32 L)
theorem B4_v3 : B4 L (Proc.devRef .tc main_v3) = val_main_v3 (F := F) (L (Proc.devRef .tc main_arg1)) :=
  (c4_keep_v3 (B3 L)).trans (B3_v3 L)
theorem B4_v6 : B4 L (Proc.devRef .tc main_v6) = val_main_v6 (F := F) (L (Proc.devRef .tc main_arg1)) :=
  (c4_keep_v6 (B3 L)).trans (B3_v6 L)
theorem B4_arg3 : B4 L (Proc.devRef .tc main_arg3) = (L (Proc.devRef .tc main_arg3)) :=
  (c4_keep_arg3 (B3 L)).trans (B3_arg3 L)
theorem B4_arg4 : B4 L (Proc.devRef .tc main_arg4) = (L (Proc.devRef .tc main_arg4)) :=
  (c4_keep_arg4 (B3 L)).trans (B3_arg4 L)
theorem B4_arg5 : B4 L (Proc.devRef .tc main_arg5) = (L (Proc.devRef .tc main_arg5)) :=
  (c4_keep_arg5 (B3 L)).trans (B3_arg5 L)

/-! After chunk 5. -/
theorem B5_v50 : B5 L (Proc.devRef .tc main_v50) = val_main_v50 (F := F) (L (Proc.devRef .tc main_arg0)) (L (Proc.devRef .tc main_arg1)) (L (Proc.devRef .tc main_arg2)) (L (Proc.devRef .tc main_arg3)) (L (Proc.devRef .tc main_arg4)) :=
  c5_v50 (B4 L) _ _ _ _ _ (B4_v45 L) (B4_arg3 L) (B4_arg4 L)
theorem B5_v3 : B5 L (Proc.devRef .tc main_v3) = val_main_v3 (F := F) (L (Proc.devRef .tc main_arg1)) :=
  (c5_keep_v3 (B4 L)).trans (B4_v3 L)
theorem B5_v6 : B5 L (Proc.devRef .tc main_v6) = val_main_v6 (F := F) (L (Proc.devRef .tc main_arg1)) :=
  (c5_keep_v6 (B4 L)).trans (B4_v6 L)
theorem B5_arg5 : B5 L (Proc.devRef .tc main_arg5) = (L (Proc.devRef .tc main_arg5)) :=
  (c5_keep_arg5 (B4 L)).trans (B4_arg5 L)

/-! After chunk 6. -/
theorem B6_v60 : B6 L (Proc.devRef .tc main_v60) = val_main_v60 (F := F) (L (Proc.devRef .tc main_arg1)) :=
  c6_v60 (B5 L) _ (B5_v6 L)
theorem B6_v3 : B6 L (Proc.devRef .tc main_v3) = val_main_v3 (F := F) (L (Proc.devRef .tc main_arg1)) :=
  (c6_keep_v3 (B5 L)).trans (B5_v3 L)
theorem B6_v6 : B6 L (Proc.devRef .tc main_v6) = val_main_v6 (F := F) (L (Proc.devRef .tc main_arg1)) :=
  (c6_keep_v6 (B5 L)).trans (B5_v6 L)
theorem B6_v50 : B6 L (Proc.devRef .tc main_v50) = val_main_v50 (F := F) (L (Proc.devRef .tc main_arg0)) (L (Proc.devRef .tc main_arg1)) (L (Proc.devRef .tc main_arg2)) (L (Proc.devRef .tc main_arg3)) (L (Proc.devRef .tc main_arg4)) :=
  (c6_keep_v50 (B5 L)).trans (B5_v50 L)
theorem B6_arg5 : B6 L (Proc.devRef .tc main_arg5) = (L (Proc.devRef .tc main_arg5)) :=
  (c6_keep_arg5 (B5 L)).trans (B5_arg5 L)

/-! After chunk 7. -/
theorem B7_v75 : B7 L (Proc.devRef .tc main_v75) = val_main_v75 (F := F) (L (Proc.devRef .tc main_arg1)) :=
  c7_v75 (B6 L) _ (B6_v3 L) (B6_v6 L) (B6_v60 L)
theorem B7_v3 : B7 L (Proc.devRef .tc main_v3) = val_main_v3 (F := F) (L (Proc.devRef .tc main_arg1)) :=
  (c7_keep_v3 (B6 L)).trans (B6_v3 L)
theorem B7_v6 : B7 L (Proc.devRef .tc main_v6) = val_main_v6 (F := F) (L (Proc.devRef .tc main_arg1)) :=
  (c7_keep_v6 (B6 L)).trans (B6_v6 L)
theorem B7_v50 : B7 L (Proc.devRef .tc main_v50) = val_main_v50 (F := F) (L (Proc.devRef .tc main_arg0)) (L (Proc.devRef .tc main_arg1)) (L (Proc.devRef .tc main_arg2)) (L (Proc.devRef .tc main_arg3)) (L (Proc.devRef .tc main_arg4)) :=
  (c7_keep_v50 (B6 L)).trans (B6_v50 L)
theorem B7_arg5 : B7 L (Proc.devRef .tc main_arg5) = (L (Proc.devRef .tc main_arg5)) :=
  (c7_keep_arg5 (B6 L)).trans (B6_arg5 L)

/-! After chunk 8. -/
theorem B8_v88 : B8 L (Proc.devRef .tc main_v88) = val_main_v88 (F := F) (L (Proc.devRef .tc main_arg0)) (L (Proc.devRef .tc main_arg1)) (L (Proc.devRef .tc main_arg2)) (L (Proc.devRef .tc main_arg3)) (L (Proc.devRef .tc main_arg4)) :=
  c8_v88 (B7 L) _ _ _ _ _ (B7_v3 L) (B7_v6 L) (B7_v50 L) (B7_v75 L)
theorem B8_arg5 : B8 L (Proc.devRef .tc main_arg5) = (L (Proc.devRef .tc main_arg5)) :=
  (c8_keep_arg5 (B7 L)).trans (B7_arg5 L)

/-! After chunk 9. -/
theorem B9_v91 : B9 L (Proc.devRef .tc main_v91) = val_main_v91 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  c9_v91 (B8 L) _ _ _ _ _ _ (B8_v88 L) (B8_arg5 L)

/-! After chunk 10. -/
theorem B10_call3_cst : B10 L (Proc.devRef .tc main_call3_cst) = val_main_call3_cst (F := F) :=
  c10_call3_cst (B9 L)
theorem B10_v91 : B10 L (Proc.devRef .tc main_v91) = val_main_v91 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  (c10_keep_v91 (B9 L)).trans (B9_v91 L)

/-! After chunk 11. -/
theorem B11_call3_v0 : B11 L (Proc.devRef .tc main_call3_v0) = val_main_call3_v0 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  c11_call3_v0 (B10 L) _ _ _ _ _ _ (B10_v91 L) (B10_call3_cst L)
theorem B11_v91 : B11 L (Proc.devRef .tc main_v91) = val_main_v91 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  (c11_keep_v91 (B10 L)).trans (B10_v91 L)

/-! After chunk 12. -/
theorem B12_call3_cst_0 : B12 L (Proc.devRef .tc main_call3_cst_0) = val_main_call3_cst_0 (F := F) :=
  c12_call3_cst_0 (B11 L)
theorem B12_v91 : B12 L (Proc.devRef .tc main_v91) = val_main_v91 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  (c12_keep_v91 (B11 L)).trans (B11_v91 L)
theorem B12_call3_v0 : B12 L (Proc.devRef .tc main_call3_v0) = val_main_call3_v0 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  (c12_keep_call3_v0 (B11 L)).trans (B11_call3_v0 L)

/-! After chunk 13. -/
theorem B13_call3_v1 : B13 L (Proc.devRef .tc main_call3_v1) = val_main_call3_v1 (F := F) :=
  c13_call3_v1 (B12 L) (B12_call3_cst_0 L)
theorem B13_v91 : B13 L (Proc.devRef .tc main_v91) = val_main_v91 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  (c13_keep_v91 (B12 L)).trans (B12_v91 L)
theorem B13_call3_v0 : B13 L (Proc.devRef .tc main_call3_v0) = val_main_call3_v0 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  (c13_keep_call3_v0 (B12 L)).trans (B12_call3_v0 L)

/-! After chunk 14. -/
theorem B14_call3_v2 : B14 L (Proc.devRef .tc main_call3_v2) = val_main_call3_v2 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  c14_call3_v2 (B13 L) _ _ _ _ _ _ (B13_call3_v1 L) (B13_call3_v0 L)
theorem B14_v91 : B14 L (Proc.devRef .tc main_v91) = val_main_v91 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  (c14_keep_v91 (B13 L)).trans (B13_v91 L)

/-! After chunk 15. -/
theorem B15_call3_v3 : B15 L (Proc.devRef .tc main_call3_v3) = val_main_call3_v3 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  c15_call3_v3 (B14 L) _ _ _ _ _ _ (B14_call3_v2 L)
theorem B15_v91 : B15 L (Proc.devRef .tc main_v91) = val_main_v91 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  (c15_keep_v91 (B14 L)).trans (B14_v91 L)

/-! After chunk 16. -/
theorem B16_call3_v4 : B16 L (Proc.devRef .tc main_call3_v4) = val_main_call3_v4 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  c16_call3_v4 (B15 L) _ _ _ _ _ _ (B15_call3_v3 L)
theorem B16_v91 : B16 L (Proc.devRef .tc main_v91) = val_main_v91 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  (c16_keep_v91 (B15 L)).trans (B15_v91 L)

/-! After chunk 17. -/
theorem B17_call3_v5 : B17 L (Proc.devRef .tc main_call3_v5) = val_main_call3_v5 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  c17_call3_v5 (B16 L) _ _ _ _ _ _ (B16_v91 L) (B16_call3_v4 L)
theorem B17_call3_v6 : B17 L (Proc.devRef .tc main_call3_v6) = val_main_call3_v6 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  c17_call3_v6 (B16 L) _ _ _ _ _ _ (B16_v91 L) (B16_call3_v4 L)

/-! After chunk 18. -/
theorem B18_v92 : B18 L (Proc.devRef .tc main_v92) = val_main_v92 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) :=
  c18_v92 (B17 L) _ _ _ _ _ _ (B17_call3_v5 L) (B17_call3_v6 L)

/-- THE REFERENCE'S RESULT: after all 137 operations the result's buffer holds the last stage of the arguments. -/
theorem after_ops_v92 : StableHlo.after ops L (Proc.devRef .tc main_v92)
    = val_main_v92 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) := by
  rw [ops_split]
  simp only [StableHlo.after_append]
  exact B18_v92 L

end Boundaries

end Cert.ReferenceIdeal.RefWalk

end
-- ==== Proof.RefRun.lean ====
/-
  The reference program's run: every weakly fair execution terminates, nothing faulting, with the result's buffer at the
  reference's last stage of the arguments as launched, and the argument arrays unchanged. The program is one straight
  line of array operations, so every final state has each buffer at the fold of the operations over the launch contents;
  the result's buffer is then read chunk by chunk, and an argument's buffer is written by no operation.
-/
import proofs.«150700_j78589311582297_1_alg».proof.Proof.RefOps
import proofs.«150700_j78589311582297_1_alg».proof.Proof.RefRead
import proofs.«150700_j78589311582297_1_alg».proof.Proof.RefWalk
import Idealize.ShloMosaic.Lib.StableHlo.Run

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 54800000 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92) = val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v92).trans (Cert.ReferenceIdeal.RefWalk.after_ops_v92 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.ValueP

end
-- ==== Proof.RefMat.lean ====
/- The reference's two matrix products, read at an index: each `dot_general` with one contracted axis is, entry by
   entry, the sum over the contracted coordinate of the products — the matrix product of its two operands. -/
import proofs.«150700_j78589311582297_1_alg».proof.Proof.RefRead
import proofs.«150700_j78589311582297_1_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefSpec

open Idealize.ShloMosaic Idealize.ShloMosaic.TcCoe Idealize.ShloMosaic.ValueIdx Idealize.SL.Sem
open Cert.ReferenceIdeal Cert.ReferenceIdeal.ReadP Cert.Gcn

variable (x0 : (⟨S100000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 : (⟨S64x40, .f32⟩ : BufTy).Contents (Elt Ideal)) (x5 : (⟨S40, .f32⟩ : BufTy).Contents (Elt Ideal))

/-- In the first product, the left operand is read in the entry's row at the summation index. -/
theorem left_of_first (i : S100000x64.Idx) (k : Fin 128) : lidx_main_v7 i k = ix2 (row i) k :=
  funext fun a => Fin.ext (by match a with | ⟨0, _⟩ => rfl | ⟨1, _⟩ => rfl)
/-- In the first product, the right operand is read at the summation index in the entry's column. -/
theorem right_of_first (i : S100000x64.Idx) (k : Fin 128) : ridx_main_v7 i k = ix2 k (col i) :=
  funext fun a => Fin.ext (by match a with | ⟨0, _⟩ => rfl | ⟨1, _⟩ => rfl)
/-- The sum the first product reads at an entry is that entry of the matrix product, whatever the operands. -/
theorem sum_first (l : Mat 100000 128) (r : Mat 128 64) (i : S100000x64.Idx) :
    ∑ k : Fin 128, l (lidx_main_v7 i k) * r (ridx_main_v7 i k) = matProd l r i := by
  unfold matProd
  refine Finset.sum_congr rfl fun k _ => ?_
  rw [left_of_first, right_of_first]

/-- The reference's first product is the matrix product of the features and the first weights. -/
theorem v7_eq : val_main_v7 (F := Ideal) x0 x2 = matProd x0 x2 :=
  funext fun i => (val_main_v7_apply x0 x2 i).trans (sum_first x0 x2 i)

/-- In the second product, the left operand is read in the entry's row at the summation index. -/
theorem left_of_second (i : S100000x40.Idx) (k : Fin 64) : lidx_main_v50 i k = ix2 (row i) k :=
  funext fun a => Fin.ext (by match a with | ⟨0, _⟩ => rfl | ⟨1, _⟩ => rfl)
/-- In the second product, the right operand is read at the summation index in the entry's column. -/
theorem right_of_second (i : S100000x40.Idx) (k : Fin 64) : ridx_main_v50 i k = ix2 k (col i) :=
  funext fun a => Fin.ext (by match a with | ⟨0, _⟩ => rfl | ⟨1, _⟩ => rfl)
/-- The sum the second product reads at an entry is that entry of the matrix product, whatever the operands. -/
theorem sum_second (l : Mat 100000 64) (r : Mat 64 40) (i : S100000x40.Idx) :
    ∑ k : Fin 64, l (lidx_main_v50 i k) * r (ridx_main_v50 i k) = matProd l r i := by
  unfold matProd
  refine Finset.sum_congr rfl fun k _ => ?_
  rw [left_of_second, right_of_second]

/-- The reference's second product is the matrix product of the hidden features and the second weights. -/
theorem v50_eq : val_main_v50 (F := Ideal) x0 x1 x2 x3 x4 = matProd (val_main_v49 (F := Ideal) x0 x1 x2 x3) x4 :=
  funext fun i => (val_main_v50_apply x0 x1 x2 x3 x4 i).trans (sum_second (val_main_v49 (F := Ideal) x0 x1 x2 x3) x4 i)

end Cert.ReferenceIdeal.RefSpec

end
-- ==== Proof.RefBias.lean ====
/- The reference's first bias and clipping, read at an index: the bias vector broadcast as a row to every row, added,
   and the maximum with zero taken entry by entry. -/
import proofs.«150700_j78589311582297_1_alg».proof.Proof.RefRead
import proofs.«150700_j78589311582297_1_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefSpec

open Idealize.ShloMosaic Idealize.ShloMosaic.TcCoe Idealize.ShloMosaic.ValueIdx Idealize.SL.Sem
open Cert.ReferenceIdeal Cert.ReferenceIdeal.ReadP Cert.Gcn

/-- The clipped sum with a bias vector read at an index: the array there plus the vector's entry in that index's column,
    then the maximum with the value of the zero word. Stated with the place the vector is read as a separate index. -/
theorem hiddenBias_at (A : Mat 100000 64) (b : Vec1 64) (i : S100000x64.Idx) (k : S64.Idx) (hk : k = ix1 (col i)) :
    max (A i + b k) zeroWord = clipBelow zeroWord (addRow A (asRow b)) i := by
  subst hk; rfl

/-- Spreading the vector to one row and that row to every row reads the vector, from an index of the large array, at the
    index's column. -/
theorem hiddenBias_index (i : S100000x64.Idx) : idx_main_v46 (idx_main_v47 i) = ix1 (col i) :=
  funext fun a => Fin.ext (by match a with | ⟨0, _⟩ => rfl)

variable (x0 : (⟨S100000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 : (⟨S64x40, .f32⟩ : BufTy).Contents (Elt Ideal)) (x5 : (⟨S40, .f32⟩ : BufTy).Contents (Elt Ideal))

/-- The reference's hidden features are the first mixing with the bias row added, clipped below at zero. -/
theorem v49_eq : val_main_v49 (F := Ideal) x0 x1 x2 x3
    = clipBelow zeroWord (addRow (val_main_v45 (F := Ideal) x0 x1 x2) (asRow x3)) := by
  funext i
  rw [val_main_v49_apply, val_main_v48_apply, val_main_v47_apply, val_main_v46_apply, val_main_call1_v0_apply,
    val_main_call1_cst_apply]
  generalize val_main_v45 (F := Ideal) x0 x1 x2 = A
  exact hiddenBias_at A x3 i _ (hiddenBias_index i)

end Cert.ReferenceIdeal.RefSpec

end
-- ==== Proof.RefLsm.lean ====
/- The reference's second bias and its log-softmax, read at an index: the bias vector added to every row; the row's
   maximum folded from minus infinity (the further maximum with minus infinity changes nothing); the maximum
   subtracted, the exponentials summed along the row from zero, the logarithm subtracted. -/
import proofs.«150700_j78589311582297_1_alg».proof.Proof.RefRead
import proofs.«150700_j78589311582297_1_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefSpec

open Idealize.ShloMosaic Idealize.ShloMosaic.TcCoe Idealize.ShloMosaic.ValueIdx Idealize.SL.Sem
open Cert.ReferenceIdeal Cert.ReferenceIdeal.ReadP Cert.Gcn

variable (x0 : (⟨S100000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 : (⟨S64x40, .f32⟩ : BufTy).Contents (Elt Ideal)) (x5 : (⟨S40, .f32⟩ : BufTy).Contents (Elt Ideal))

/-! ## The row maximum as the reference takes it -/

/-- The columns of a `[100000, 40]` array are the axis both row reductions fold away. -/
theorem rowsReduce : S100000x40.Reduces [1] S100000 := by decide

/-- Along the columns, the index that row `r` and column `l` name is `(r, l)`. -/
theorem liftRow_ref (r : Fin 100000) (l : Fin 40) : rowsReduce.lift (ix1 r) l = ix2 r l :=
  funext fun a => Fin.ext (match a with | ⟨0, _⟩ => rfl | ⟨1, _⟩ => rfl)

/-- The reduction with a maximum body along the columns, started from minus infinity, is at row `j` that row's
    `rowMax`: a maximum is commutative and associative, so the fold may be taken over the row's forty columns. -/
theorem hostRowMax_read (v : FVec Ideal S100000x40 .f32) (h' : S100000x40.ReducesTo [1] S100000)
    (hu : 0 < S_.numel) (j : S100000.Idx) :
    Host.reduce FloatOps.maximumf v (val_main_call3_cst (F := Ideal)) h' hu j
      = rowMax negInfWord v ⟨(j 0).val, (j 0).isLt⟩ := by
  obtain ⟨r, rfl⟩ : ∃ r : Fin 100000, j = ix1 r := ⟨j 0, eq_ix1 j⟩
  refine (Host.reduce_eq_fold_single FloatOps.maximumf v _ h' rowsReduce hu (ix1 r)).trans ?_
  exact congrArg (fun f => (Finset.univ : Finset (Fin 40)).fold max negInfWord f)
    (funext fun l => congrArg v (liftRow_ref r l))

/-- The maximum spread back over the array: at `i` it is the maximum of `i`'s row of the biased array; the further
    maximum with minus infinity changes nothing, the fold having started there. -/
theorem call3_v4_read (i : S100000x40.Idx) :
    val_main_call3_v4 (F := Ideal) x0 x1 x2 x3 x4 x5 i
      = rowMax negInfWord (val_main_v91 (F := Ideal) x0 x1 x2 x3 x4 x5) (row i) := by
  rw [val_main_call3_v4_apply, val_main_call3_v3_apply, val_main_call3_v2_apply, val_main_call3_v1_apply,
    val_main_call3_cst_0_apply]
  unfold val_main_call3_v0
  rw [hostRowMax_read]
  exact max_rowMax negInfWord _ (row i)

/-! ## The bias -/

/-- The bias vector laid out as a row and spread over the rows, added: the bias row added to every row. -/
theorem v91_eq_addRow : val_main_v91 (F := Ideal) x0 x1 x2 x3 x4 x5
    = addRow (val_main_v88 (F := Ideal) x0 x1 x2 x3 x4) (asRow x5) := by
  funext i
  rw [val_main_v91_apply, val_main_v90_apply, val_main_v89_apply]
  generalize val_main_v88 (F := Ideal) x0 x1 x2 x3 x4 = A
  show A i + x5 (idx_main_v89 (idx_main_v90 i)) = A i + x5 (ix1 (col (ix2 (0 : Fin 1) (col i))))
  refine congrArg (A i + ·) (congrArg x5 (funext fun a => Fin.ext ?_))
  match a with
  | ⟨0, _⟩ => rfl

/-! ## The log-softmax of the biased array -/

/-- The biased array with its row's maximum subtracted. -/
theorem call3_v5_read (i : S100000x40.Idx) :
    val_main_call3_v5 (F := Ideal) x0 x1 x2 x3 x4 x5 i
      = val_main_v91 (F := Ideal) x0 x1 x2 x3 x4 x5 i
        - rowMax negInfWord (val_main_v91 (F := Ideal) x0 x1 x2 x3 x4 x5) (row i) :=
  (val_main_call3_v5_apply x0 x1 x2 x3 x4 x5 i).trans
    (congrArg (fun m => val_main_v91 (F := Ideal) x0 x1 x2 x3 x4 x5 i - m) (call3_v4_read x0 x1 x2 x3 x4 x5 i))

/-- The sum along a row, started from zero, of the exponentials of the row's entries less the row's maximum. -/
theorem call3_v7_read (r : Fin 100000) :
    val_main_call3_v7 (F := Ideal) x0 x1 x2 x3 x4 x5 (ix1 r)
      = ∑ k : Fin 40, Ideal.exp (val_main_v91 (F := Ideal) x0 x1 x2 x3 x4 x5 (ix2 r k)
          - rowMax negInfWord (val_main_v91 (F := Ideal) x0 x1 x2 x3 x4 x5) r) := by
  refine (val_main_call3_v7_apply x0 x1 x2 x3 x4 x5 (ix1 r)).trans ?_
  refine (congrArg (· + ∑ k : Fin 40, val_main_call3_v6 (F := Ideal) x0 x1 x2 x3 x4 x5 (idx_main_call3_v7 (ix1 r) k))
    Ideal.ofBits_zero_f32).trans ?_
  refine (zero_add _).trans ?_
  refine Finset.sum_congr rfl fun k _ => ?_
  have hk : idx_main_call3_v7 (ix1 r) k = ix2 r k :=
    funext fun a => Fin.ext (match a with | ⟨0, _⟩ => rfl | ⟨1, _⟩ => rfl)
  rw [hk]
  refine (val_main_call3_v6_apply x0 x1 x2 x3 x4 x5 (ix2 r k)).trans ?_
  refine (Ideal.hostUnary_exp_def _).trans ?_
  exact congrArg Ideal.exp (call3_v5_read x0 x1 x2 x3 x4 x5 (ix2 r k))

/-- The logarithm of that sum, spread back over the array. -/
theorem call3_v10_read (i : S100000x40.Idx) :
    val_main_call3_v10 (F := Ideal) x0 x1 x2 x3 x4 x5 i
      = Ideal.log (∑ k : Fin 40, Ideal.exp (val_main_v91 (F := Ideal) x0 x1 x2 x3 x4 x5 (ix2 (row i) k)
          - rowMax negInfWord (val_main_v91 (F := Ideal) x0 x1 x2 x3 x4 x5) (row i))) := by
  refine (val_main_call3_v10_apply x0 x1 x2 x3 x4 x5 i).trans ?_
  refine (val_main_call3_v9_apply x0 x1 x2 x3 x4 x5 (idx_main_call3_v10 i)).trans ?_
  refine (Ideal.hostUnary_log_def _).trans ?_
  refine congrArg Ideal.log ?_
  refine (val_main_call3_v8_apply x0 x1 x2 x3 x4 x5 (idx_main_call3_v10 i)).trans ?_
  have hj : idx_main_call3_v8 (idx_main_call3_v10 i) = ix1 (row i) :=
    funext fun a => Fin.ext (match a with | ⟨0, _⟩ => rfl)
  rw [hj]
  exact call3_v7_read x0 x1 x2 x3 x4 x5 (row i)

/-- The maximum subtracted, the exponentials summed along the row from zero, the logarithm subtracted: the
    row-wise log-softmax of the biased array. -/
theorem v92_eq_lsm_v91 : val_main_v92 (F := Ideal) x0 x1 x2 x3 x4 x5
    = logSoftmaxRows negInfWord (val_main_v91 (F := Ideal) x0 x1 x2 x3 x4 x5) := by
  funext i
  refine (val_main_v92_apply x0 x1 x2 x3 x4 x5 i).trans ?_
  refine (congrArg₂ (fun a b : EReal => a - b) (call3_v5_read x0 x1 x2 x3 x4 x5 i)
    (call3_v10_read x0 x1 x2 x3 x4 x5 i)).trans ?_
  rfl

/-- The reference's result is the row-wise log-softmax of the second mixing with the bias row added. -/
theorem v92_eq : val_main_v92 (F := Ideal) x0 x1 x2 x3 x4 x5
    = logSoftmaxRows negInfWord (addRow (val_main_v88 (F := Ideal) x0 x1 x2 x3 x4) (asRow x5)) := by
  rw [v92_eq_lsm_v91 x0 x1 x2 x3 x4 x5, v91_eq_addRow x0 x1 x2 x3 x4 x5]

end Cert.ReferenceIdeal.RefSpec

end
-- ==== Proof.HostSame.lean ====
/- The two programs mix features along the edges with the SAME operations: the kernel program's mixing of an array is
   the reference's stage computed from that array. Nothing is opened: both sides are the same tree of operations (the
   reference recomputes the edges' weights for its second layer; they are the same term). -/
import proofs.«150700_j78589311582297_1_alg».proof.Proof.RefRead
import proofs.«150700_j78589311582297_1_alg».proof.Proof.Host

set_option maxRecDepth 16384

noncomputable section

namespace Cert.ReferenceIdeal.RefSpec

open Idealize.ShloMosaic Idealize.ShloMosaic.TcCoe Idealize.SL.Sem
open Cert.ReferenceIdeal Cert.ReferenceIdeal.ReadP

variable {F : FTy → Type} [FloatOps F]
variable (x0 : (⟨S100000x128, .f32⟩ : BufTy).Contents (Elt F)) (x1 : (⟨S2x800000, .i32⟩ : BufTy).Contents (Elt F))
  (x2 : (⟨S128x64, .f32⟩ : BufTy).Contents (Elt F)) (x3 : (⟨S64, .f32⟩ : BufTy).Contents (Elt F))
  (x4 : (⟨S64x40, .f32⟩ : BufTy).Contents (Elt F))

set_option maxHeartbeats 400000 in
/-- The first layer's mixing of the reference's first product is the reference's stage after its first scatter-add. -/
theorem mix64_same : Cert.KernelIdeal.Val.mix64 (F := F) (val_main_v7 (F := F) x0 x2) x1 = val_main_v45 (F := F) x0 x1 x2 := by
  unfold Cert.KernelIdeal.Val.mix64 Cert.KernelIdeal.Val.mixWith64 Cert.KernelIdeal.Val.edgeWeight Cert.KernelIdeal.Val.edgeWeightOf Cert.KernelIdeal.Val.invSqrtDeg Cert.KernelIdeal.Val.whereOr Cert.KernelIdeal.Val.degPos Cert.KernelIdeal.Val.rsqrtDeg Cert.KernelIdeal.Val.degree Cert.KernelIdeal.Val.colIx Cert.KernelIdeal.Val.wrapIx Cert.KernelIdeal.Val.srcIx Cert.KernelIdeal.Val.dstIx Cert.KernelIdeal.Val.edgeEnd
  unfold val_main_v45 val_main_v44 val_main_v43 val_main_cst_9 val_main_v42 val_main_v41 val_main_v40 val_main_v39 val_main_v38 val_main_v37 val_main_v36 val_main_v35 val_main_c_8 val_main_v34 val_main_v33 val_main_c_7 val_main_v32 val_main_v31 val_main_v30 val_main_v29 val_main_v28 val_main_v27 val_main_c_6 val_main_v26 val_main_v25 val_main_c_5 val_main_v24 val_main_v23 val_main_v22 val_main_v21 val_main_v20 val_main_c_4 val_main_v19 val_main_v18 val_main_c val_main_v17 val_main_call0_v1 val_main_call0_v0 val_main_cst_3 val_main_v16 val_main_v15 val_main_v14 val_main_cst_2 val_main_v13 val_main_v12 val_main_cst_1 val_main_v11 val_main_v10 val_main_v9 val_main_cst_0 val_main_v8 val_main_cst val_main_v6 val_main_v5 val_main_v4 val_main_v3 val_main_v2 val_main_v1 val_main_v0
  rfl

set_option maxHeartbeats 400000 in
/-- The second layer's mixing of the reference's second product is the reference's stage after its second scatter-add. -/
theorem mix40_same : Cert.KernelIdeal.Val.mix40 (F := F) (val_main_v50 (F := F) x0 x1 x2 x3 x4) x1 = val_main_v88 (F := F) x0 x1 x2 x3 x4 := by
  unfold Cert.KernelIdeal.Val.mix40 Cert.KernelIdeal.Val.mixWith40 Cert.KernelIdeal.Val.edgeWeight Cert.KernelIdeal.Val.edgeWeightOf Cert.KernelIdeal.Val.invSqrtDeg Cert.KernelIdeal.Val.whereOr Cert.KernelIdeal.Val.degPos Cert.KernelIdeal.Val.rsqrtDeg Cert.KernelIdeal.Val.degree Cert.KernelIdeal.Val.colIx Cert.KernelIdeal.Val.wrapIx Cert.KernelIdeal.Val.srcIx Cert.KernelIdeal.Val.dstIx Cert.KernelIdeal.Val.edgeEnd
  unfold val_main_v88 val_main_v87 val_main_v86 val_main_cst_21 val_main_v85 val_main_v84 val_main_v83 val_main_v82 val_main_v81 val_main_v80 val_main_v79 val_main_v78 val_main_c_20 val_main_v77 val_main_v76 val_main_c_19 val_main_v75 val_main_v74 val_main_v73 val_main_v72 val_main_v71 val_main_v70 val_main_c_18 val_main_v69 val_main_v68 val_main_c_17 val_main_v67 val_main_v66 val_main_v65 val_main_v64 val_main_v63 val_main_c_16 val_main_v62 val_main_v61 val_main_c_15 val_main_v60 val_main_call2_v1 val_main_call2_v0 val_main_cst_14 val_main_v59 val_main_v58 val_main_v57 val_main_cst_13 val_main_v56 val_main_v55 val_main_cst_12 val_main_v54 val_main_v53 val_main_v52 val_main_cst_11 val_main_v51 val_main_cst_10 val_main_v6 val_main_v5 val_main_v4 val_main_v3 val_main_v2 val_main_v1 val_main_v0
  rfl

end Cert.ReferenceIdeal.RefSpec

end
-- ==== Proof.RefOut.lean ====
/- The reference's result is the same function of the arguments as the kernel program's: stage by stage, the reference's
   products are matrix products, its bias steps add a row, its clipping and log-softmax are the row-wise functions, and
   its mixing along the edges is the kernel program's mixing of the same array. -/
import proofs.«150700_j78589311582297_1_alg».proof.Proof.RefMat
import proofs.«150700_j78589311582297_1_alg».proof.Proof.RefBias
import proofs.«150700_j78589311582297_1_alg».proof.Proof.RefLsm
import proofs.«150700_j78589311582297_1_alg».proof.Proof.HostSame
import proofs.«150700_j78589311582297_1_alg».proof.Proof.Out

set_option maxRecDepth 16384

noncomputable section

namespace Cert.ReferenceIdeal.RefSpec

open Idealize.ShloMosaic Idealize.ShloMosaic.TcCoe Idealize.SL.Sem
open Cert.ReferenceIdeal Cert.ReferenceIdeal.ReadP Cert.Gcn

variable (x0 : (⟨S100000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 : (⟨S64x40, .f32⟩ : BufTy).Contents (Elt Ideal)) (x5 : (⟨S40, .f32⟩ : BufTy).Contents (Elt Ideal))

/-- The reference's last stage is the two-layer function of the arguments. -/
theorem v92_eq_out : val_main_v92 (F := Ideal) x0 x1 x2 x3 x4 x5 = Cert.KernelIdeal.Val.kernelOut x0 x1 x2 x3 x4 x5 := by
  rw [v92_eq, ← mix40_same, v50_eq, v49_eq, ← mix64_same, v7_eq]
  rfl

end Cert.ReferenceIdeal.RefSpec

end
-- ==== Proof.lean ====
/-
  The certificate of a two-layer graph convolution with a log-softmax head, tiled over the nodes, against its plain
  array reference: both programs, read on the extended reals, end with the same array.

  Both compute  out = logSoftmaxRows (addRow (mix (matProd h W₂)) b₂)  with  h = max 0 (addRow (mix (matProd x W₁)) b₁),
  where `mix` gathers the source's row for every edge, scales it by the edge's weight and sums it into the target's
  row. The kernel program does the two products, the clipping and the log-softmax in four tiled regions of 20 grid points
  each (5000 rows a tile, the weight or bias resident) and leaves the mixing to array operations between the regions;
  the reference does everything with array operations. At the ideal values a tile of a product is the rows' sums of
  products, a change of float format is the identity, a row's maximum folded from minus infinity absorbs one more
  maximum with minus infinity, and the mixing is the same operations applied to equal arrays: so index by index the two
  results are one function of the six arguments. No law needing finiteness is used; the precondition is never opened.

  The three frames: the two kernel programs' are the generated ones; the reference's is its run with the result dropped.
  The idealization rewrote no operation, so there is nothing to preserve.
-/
import proofs.«150700_j78589311582297_1_alg».proof.Defs
import proofs.«150700_j78589311582297_1_alg».proof.Proof.Gen.Kernel
import proofs.«150700_j78589311582297_1_alg».proof.Proof.Gen.Kernel.Skeleton
import proofs.«150700_j78589311582297_1_alg».proof.Proof.Gen.Kernel.Launch
import proofs.«150700_j78589311582297_1_alg».proof.Proof.Gen.Kernel.Points
import proofs.«150700_j78589311582297_1_alg».proof.Proof.Gen.Kernel.Frame
import proofs.«150700_j78589311582297_1_alg».proof.Proof.Gen.KernelIdeal
import proofs.«150700_j78589311582297_1_alg».proof.Proof.Gen.KernelIdeal.Skeleton
import proofs.«150700_j78589311582297_1_alg».proof.Proof.Gen.KernelIdeal.Launch
import proofs.«150700_j78589311582297_1_alg».proof.Proof.Gen.KernelIdeal.Points
import proofs.«150700_j78589311582297_1_alg».proof.Proof.Gen.KernelIdeal.Frame
import proofs.«150700_j78589311582297_1_alg».proof.Proof.Gen.ReferenceIdeal
import proofs.«150700_j78589311582297_1_alg».proof.Proof.Gen.Pre_finite_inputs
import proofs.«150700_j78589311582297_1_alg».proof.Proof.KRun
import proofs.«150700_j78589311582297_1_alg».proof.Proof.Walk
import proofs.«150700_j78589311582297_1_alg».proof.Proof.RefRun
import proofs.«150700_j78589311582297_1_alg».proof.Proof.RefOut
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the two-layer function of those arguments. -/
theorem algebraic : Cert.algebraic_KernelIdeal_ReferenceIdeal := by
  intro m ρ m' ρ' _ hagree
  refine ⟨fun c => Cert.KernelIdeal.Val.kernelOut (Cert.KernelIdeal.Val.a0 m c) (Cert.KernelIdeal.Val.a1 m c)
      (Cert.KernelIdeal.Val.a2 m c) (Cert.KernelIdeal.Val.a3 m c) (Cert.KernelIdeal.Val.a4 m c) (Cert.KernelIdeal.Val.a5 m c), ?_, ?_⟩
  · exact (θ_run Cert.KernelIdeal.defs _ _).mono
      (fun r h c => ⟨(h c).1.trans (Cert.KernelIdeal.Val.W9_v62 m ρ c), (h c).2⟩)
      (Cert.KernelIdeal.GenP.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefSpec.v92_eq_out,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
